-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x512 : Shape := ⟨3, ![128, 256, 512]⟩
abbrev S512x256 : Shape := ⟨2, ![512, 256]⟩
abbrev S1024x2048 : Shape := ⟨2, ![1024, 2048]⟩
abbrev S4096x2048 : Shape := ⟨2, ![4096, 2048]⟩
abbrev S2048 : Shape := ⟨1, ![2048]⟩
abbrev S2048x2048 : Shape := ⟨2, ![2048, 2048]⟩
abbrev S2048x3 : Shape := ⟨2, ![2048, 3]⟩
abbrev S3 : Shape := ⟨1, ![3]⟩
abbrev S_ : Shape := ⟨0, ![]⟩

class Facts : Prop where
  bcast_S_S128x256x512 : S_.BroadcastsInDim S128x256x512 (![] : Fin 0 → Fin S128x256x512.rank)
  reducesTo_S128x256x512_S_d0_1_2 : S128x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x3 : S_.BroadcastsInDim S2048x3 (![] : Fin 0 → Fin S2048x3.rank)
  reducesTo_S2048x3_S_d0_1 : S2048x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S2048 .f32) (main_arg8 : FVec F S2048x3 .f32) (main_arg9 : FVec F S3 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x3 .f32 := Host.absf main_arg8
  let main_cst_14 : FVec F S_ .f32 := constant S_ .f32 0x7F800000#32
  let main_v40 : FVec F S2048x3 .f32 := broadcastInDim S2048x3 ![] bcast_S_S2048x3 main_cst_14
  let main_v41 : IVec S2048x3 1 := cmpf .olt main_v39 main_v40
  let main_c_15 : IVec S_ 1 := constantI S_ 1 1#1
  let main_v42 : IVec S_ 1 := (fun x v => Host.reduce IntOp.andi x v reducesTo_S2048x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S4096x2048 .f32) (main_arg5 : FVec F S2048 .f32) (main_arg6 : FVec F S2048x2048 .f32) (main_arg7 : FVec F S2048 .f32) (main_arg8 : FVec F S2048x3 .f32) (main_arg9 : FVec F S3 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S128x256x512 .f32) (main_arg1 : FVec F S128x256x512 .f32) (main_arg2 : FVec F S512x256 .f32) (main_arg3 : FVec F S1024x2048 .f32) (main_arg4 : FVec F S4096x2048 .f32) (main_arg5 : FVec F S2048 .f32) (main_arg6 : FVec F S2048x2048 .f32) (main_arg7 : FVec F S2048 .f32) (main_arg8 : FVec F S2048x3 .f32) (main_arg9 : FVec F S3 .f32) : IVec S_ 1 :=
  let main_v0 : FVec F S128x256x512 .f32 := Host.absf main_arg0
  let main_cst : FVec F S_ .f32 := constant S_ .f32 0x7F800000#32
  let main_v1 : FVec F S128x256x512 .f32 := broadcastInDim S128x256x512 ![] bcast_S_S128x256x512 main_cst
  let main_v2 : IVec S128x256x512 1 := cmpf .olt main_v0 main_v1
  let main_c : IVec S_ 1 := constantI S_ 1 1#1
  let main_v3 : IVec S_ 1 := (fun x v => Host.reduce IntOp.andi x v reducesTo_S128x256x512_S_d0_1_2 h_S_) main_v2 main_c
  let main_v4 : FVec F S128x256x512 .f32 := Host.absf main_arg1
  let main_cst_0 : FVec F S_ .f32 := constant S_ .f32 0x7F800000#32
  let main_v5 : FVec F S128x256x512 .f32 := broadcastInDim S128x256x512 ![] bcast_S_S128x256x512 main_cst_0
  let main_v6 : IVec S128x256x512 1 := cmpf .olt main_v4 main_v5
  let main_c_1 : IVec S_ 1 := constantI S_ 1 1#1
  let main_v7 : IVec S_ 1 := (fun x v => Host.reduce IntOp.andi x v reducesTo_S128x256x512_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_v13 main_v16
-- ==== Kernel.lean ====
abbrev S128x256x512 : Shape := ⟨3, ![128, 256, 512]⟩
abbrev S512x256 : Shape := ⟨2, ![512, 256]⟩
abbrev S1024x2048 : Shape := ⟨2, ![1024, 2048]⟩
abbrev S4096x2048 : Shape := ⟨2, ![4096, 2048]⟩
abbrev S2048 : Shape := ⟨1, ![2048]⟩
abbrev S2048x2048 : Shape := ⟨2, ![2048, 2048]⟩
abbrev S2048x3 : Shape := ⟨2, ![2048, 3]⟩
abbrev S3 : Shape := ⟨1, ![3]⟩
abbrev S8x256x512 : Shape := ⟨3, ![8, 256, 512]⟩
abbrev S2048x512 : Shape := ⟨2, ![2048, 512]⟩
abbrev S2048x256 : Shape := ⟨2, ![2048, 256]⟩
abbrev S8x256x256 : Shape := ⟨3, ![8, 256, 256]⟩
abbrev S8x256 : Shape := ⟨2, ![8, 256]⟩
abbrev S8x256x1 : Shape := ⟨3, ![8, 256, 1]⟩
abbrev S128x2048 : Shape := ⟨2, ![128, 2048]⟩
abbrev S1024x512 : Shape := ⟨2, ![1024, 512]⟩
abbrev S8x512 : Shape := ⟨2, ![8, 512]⟩
abbrev S8x256x1024 : Shape := ⟨3, ![8, 256, 1024]⟩
abbrev S2048x1024 : Shape := ⟨2, ![2048, 1024]⟩
abbrev S128x4096 : Shape := ⟨2, ![128, 4096]⟩
abbrev S1x2048 : Shape := ⟨2, ![1, 2048]⟩
abbrev S1x3 : Shape := ⟨2, ![1, 3]⟩
abbrev S128x3 : Shape := ⟨2, ![128, 3]⟩
abbrev S32x4096 : Shape := ⟨2, ![32, 4096]⟩
abbrev S32x3 : Shape := ⟨2, ![32, 3]⟩
abbrev S32x2048 : Shape := ⟨2, ![32, 2048]⟩

abbrev nBuf : Space → Nat
  | .hbm => 27
  | .vmem => 35
  | .smem => 0
  | _ => 0

abbrev bufTy : (tb : Table) → Fin (tcTables nBuf tb) → BufTy
  | .hbm, ⟨0, _⟩ => ⟨S128x256x512, .f32⟩
  | .hbm, ⟨1, _⟩ => ⟨S128x256x512, .f32⟩
  | .hbm, ⟨2, _⟩ => ⟨S512x256, .f32⟩
  | .hbm, ⟨3, _⟩ => ⟨S1024x2048, .f32⟩
  | .hbm, ⟨4, _⟩ => ⟨S4096x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x3, .f32⟩
  | .hbm, ⟨9, _⟩ => ⟨S3, .f32⟩
  | .hbm, ⟨10, _⟩ => ⟨S128x256x512, .bf16⟩
  | .hbm, ⟨11, _⟩ => ⟨S128x256x512, .bf16⟩
  | .hbm, ⟨12, _⟩ => ⟨S512x256, .bf16⟩
  | .hbm, ⟨13, _⟩ => ⟨S1024x2048, .bf16⟩
  | .hbm, ⟨14, _⟩ => ⟨S128x256x512, .bf16⟩
  | .hbm, ⟨15, _⟩ => ⟨S128x256x512, .bf16⟩
  | .hbm, ⟨16, _⟩ => ⟨S128x2048, .f32⟩
  | .hbm, ⟨17, _⟩ => ⟨S128x2048, .f32⟩
  | .hbm, ⟨18, _⟩ => ⟨S128x4096, .f32⟩
  | .hbm, ⟨19, _⟩ => ⟨S128x4096, .bf16⟩
  | .hbm, ⟨20, _⟩ => ⟨S4096x2048, .bf16⟩
  | .hbm, ⟨21, _⟩ => ⟨S2048x2048, .bf16⟩
  | .hbm, ⟨22, _⟩ => ⟨S2048x3, .bf16⟩
  | .hbm, ⟨23, _⟩ => ⟨S1x2048, .f32⟩
  | .hbm, ⟨24, _⟩ => ⟨S1x2048, .f32⟩
  | .hbm, ⟨25, _⟩ => ⟨S1x3, .f32⟩
  | .hbm, ⟨26, _⟩ => ⟨S128x3, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S512x256, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S8x256x512, .bf16⟩
  | .local _ .vmem, ⟨11, _⟩ => ⟨S8x256x512, .bf16⟩
  | .local _ .vmem, ⟨12, _⟩ => ⟨S8x256x512, .bf16⟩
  | .local _ .vmem, ⟨13, _⟩ => ⟨S1024x512, .bf16⟩
  | .local _ .vmem, ⟨14, _⟩ => ⟨S1024x512, .bf16⟩
  | .local _ .vmem, ⟨15, _⟩ => ⟨S8x512, .f32⟩
  | .local _ .vmem, ⟨16, _⟩ => ⟨S8x512, .f32⟩
  | .local _ .vmem, ⟨17, _⟩ => ⟨S8x256x512, .bf16⟩
  | .local _ .vmem, ⟨18, _⟩ => ⟨S8x256x512, .bf16⟩
  | .local _ .vmem, ⟨19, _⟩ => ⟨S8x256x512, .bf16⟩
  | .local _ .vmem, ⟨20, _⟩ => ⟨S8x256x512, .bf16⟩
  | .local _ .vmem, ⟨21, _⟩ => ⟨S1024x512, .bf16⟩
  | .local _ .vmem, ⟨22, _⟩ => ⟨S1024x512, .bf16⟩
  | .local _ .vmem, ⟨23, _⟩ => ⟨S8x512, .f32⟩
  | .local _ .vmem, ⟨24, _⟩ => ⟨S8x512, .f32⟩
  | .local _ .vmem, ⟨25, _⟩ => ⟨S32x4096, .bf16⟩
  | .local _ .vmem, ⟨26, _⟩ => ⟨S32x4096, .bf16⟩
  | .local _ .vmem, ⟨27, _⟩ => ⟨S4096x2048, .bf16⟩
  | .local _ .vmem, ⟨28, _⟩ => ⟨S1x2048, .f32⟩
  | .local _ .vmem, ⟨29, _⟩ => ⟨S2048x2048, .bf16⟩
  | .local _ .vmem, ⟨30, _⟩ => ⟨S1x2048, .f32⟩
  | .local _ .vmem, ⟨31, _⟩ => ⟨S2048x3, .bf16⟩
  | .local _ .vmem, ⟨32, _⟩ => ⟨S1x3, .f32⟩
  | .local _ .vmem, ⟨33, _⟩ => ⟨S32x3, .f32⟩
  | .local _ .vmem, ⟨34, _⟩ => ⟨S32x3, .f32⟩
  | _, _ => ⟨S128x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S8x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S32x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x3 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x3 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S32x3 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bitsLt_bf16_f32 : FTy.bits .bf16 < FTy.bits .f32
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S8x256x512_S2048x512 : S8x256x512.ShapeCasts S2048x512
  shapeCasts_S2048x256_S8x256x256 : S2048x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  packedbf16_S8x256x512_S8x256x512_0_0_0 : (Rect.unit (s := S8x256x512) ![0, 0, 0] S8x256x512.size inb_S8x256x512_S8x256x512_0_0_0).PackedRows (EltTy.packing .bf16)
  transposes_S8x256x256_p0_2_1_S8x256x256 : S8x256x256.Transposes [0, 2, 1] S8x256x256
  concatenates_S8x256x512_S8x256x512_S8x256x1024_d2 : Shape.Concatenates [S8x256x512, S8x256x512] S8x256x1024 2
  shapeCasts_S8x256x1024_S2048x1024 : S8x256x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x512_S8x256x512 : S2048x512.ShapeCasts S8x256x512
  reduces_S8x256x512_S8x512 : S8x256x512.Reduces [1] S8x512
  inb_S8x512_S8x512_0_0 : ∀ a, (![0, 0] : Fin 2 → Nat) a + S8x512.size a ≤ S8x512.size a
  h_S8x512 : 0 < S8x512.numel
  concatenates_S128x2048_S128x2048_S128x4096_d1 : Shape.Concatenates [S128x2048, S128x2048] S128x4096 1
  shapeCasts_S2048_S1x2048 : S2048.ShapeCasts S1x2048
  shapeCasts_S3_S1x3 : S3.ShapeCasts S1x3
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S32x3 : S1x3.Broadcasts S32x3
  inb_S32x3_S32x3_0_0 : ∀ a, (![0, 0] : Fin 2 → Nat) a + S32x3.size a ≤ S32x3.size a
  h_S32x3 : 0 < S32x3.numel
  dot_S2048x512_S512x256_S2048x256_1_0_0_1_n_n_wf : DotDims.WF S2048x512 S512x256 S2048x256 [1] [0] [0] [1] [] []
  dot_S8x256x256_S8x256x256_S8x256x256_2_2_1_1_0_0_wf : DotDims.WF S8x256x256 S8x256x256 S8x256x256 [2] [2] [1] [1] [0] [0]
  dot_S8x256x256_S8x256x512_S8x256x512_2_1_1_2_0_0_wf : DotDims.WF S8x256x256 S8x256x512 S8x256x512 [2] [1] [1] [2] [0] [0]
  dot_S2048x1024_S1024x512_S2048x512_1_0_0_1_n_n_wf : DotDims.WF S2048x1024 S1024x512 S2048x512 [1] [0] [0] [1] [] []
  dot_S32x4096_S4096x2048_S32x2048_1_0_0_1_n_n_wf : DotDims.WF S32x4096 S4096x2048 S32x2048 [1] [0] [0] [1] [] []
  dot_S32x2048_S2048x2048_S32x2048_1_0_0_1_n_n_wf : DotDims.WF S32x2048 S2048x2048 S32x2048 [1] [0] [0] [1] [] []
  dot_S32x2048_S2048x3_S32x3_1_0_0_1_n_n_wf : DotDims.WF S32x2048 S2048x3 S32x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S128x256x512.size a
  hwx0_0 : ∀ i : grid0.Coords, EltTy.bits .bf16 = 32 ∨ (Rect.block (s := S128x256x512) S8x256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S128x256x512.size a
  hwx0_1 : ∀ i : grid0.Coords, EltTy.bits .bf16 = 32 ∨ (Rect.block (s := S128x256x512) S8x256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x512.size a ≤ S128x256x512.size a
  hwx0_3 : ∀ i : grid0.Coords, EltTy.bits .bf16 = 32 ∨ (Rect.block (s := S128x256x512) S8x256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x512.size a ≤ S128x256x512.size a
  hwx0_4 : ∀ i : grid0.Coords, EltTy.bits .bf16 = 32 ∨ (Rect.block (s := S128x256x512) S8x256x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S128x256x512.size a
  hwx1_0 : ∀ i : grid1.Coords, EltTy.bits .bf16 = 32 ∨ (Rect.block (s := S128x256x512) S8x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x512.size a ≤ S128x256x512.size a
  hwx1_1 : ∀ i : grid1.Coords, EltTy.bits .bf16 = 32 ∨ (Rect.block (s := S128x256x512) S8x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x2048.size a
  hwx1_2 : ∀ i : grid1.Coords, EltTy.bits .bf16 = 32 ∨ (Rect.block (s := S1024x2048) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S128x2048.size a
  hwx1_3 : ∀ i : grid1.Coords, EltTy.bits .f32 = 32 ∨ (Rect.block (s := S128x2048) S8x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x512.size a ≤ S128x256x512.size a
  hwx2_0 : ∀ i : grid2.Coords, EltTy.bits .bf16 = 32 ∨ (Rect.block (s := S128x256x512) S8x256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256x512.size a ≤ S128x256x512.size a
  hwx2_1 : ∀ i : grid2.Coords, EltTy.bits .bf16 = 32 ∨ (Rect.block (s := S128x256x512) S8x256x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x2048.size a
  hwx2_2 : ∀ i : grid2.Coords, EltTy.bits .bf16 = 32 ∨ (Rect.block (s := S1024x2048) S1024x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x512.size a ≤ S128x2048.size a
  hwx2_3 : ∀ i : grid2.Coords, EltTy.bits .f32 = 32 ∨ (Rect.block (s := S128x2048) S8x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x4096.size a ≤ S128x4096.size a
  hwx3_0 : ∀ i : grid3.Coords, EltTy.bits .bf16 = 32 ∨ (Rect.block (s := S128x4096) S32x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x2048.size a ≤ S4096x2048.size a
  hwx3_1 : ∀ i : grid3.Coords, EltTy.bits .bf16 = 32 ∨ (Rect.block (s := S4096x2048) S4096x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2048x2048.size a ≤ S2048x2048.size a
  hwx3_3 : ∀ i : grid3.Coords, EltTy.bits .bf16 = 32 ∨ (Rect.block (s := S2048x2048) S2048x2048.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x3.size a ≤ S2048x3.size a
  hwx3_5 : ∀ i : grid3.Coords, EltTy.bits .bf16 = 32 ∨ (Rect.block (s := S2048x3) S2048x3.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x3.size a ≤ S1x3.size a
  hwx3_6 : ∀ i : grid3.Coords, EltTy.bits .f32 = 32 ∨ (Rect.block (s := S1x3) S1x3.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S32x3.size a ≤ S128x3.size a
  hwx3_7 : ∀ i : grid3.Coords, EltTy.bits .f32 = 32 ∨ (Rect.block (s := S128x3) S32x3.size (cc3_transform_7 i) (hinb3_7 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S8x256x256_S8x256x256_S8x256x256_2_2_1_1_0_0 : DotDims S8x256x256 S8x256x256 S8x256x256 where
  lhsContracting := [2]
  rhsContracting := [2]
  lhsNonContracting := [1]
  rhsNonContracting := [1]
  lhsBatch := [0]
  rhsBatch := [0]
  wf := dot_S8x256x256_S8x256x256_S8x256x256_2_2_1_1_0_0_wf
def dot_S8x256x256_S8x256x512_S8x256x512_2_1_1_2_0_0 : DotDims S8x256x256 S8x256x512 S8x256x512 where
  lhsContracting := [2]
  rhsContracting := [1]
  lhsNonContracting := [1]
  rhsNonContracting := [2]
  lhsBatch := [0]
  rhsBatch := [0]
  wf := dot_S8x256x256_S8x256x512_S8x256x512_2_1_1_2_0_0_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S32x4096_S4096x2048_S32x2048_1_0_0_1_n_n : DotDims S32x4096 S4096x2048 S32x2048 where
  lhsContracting := [1]
  rhsContracting := [0]
  lhsNonContracting := [0]
  rhsNonContracting := [1]
  lhsBatch := []
  rhsBatch := []
  wf := dot_S32x4096_S4096x2048_S32x2048_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S32x2048_S2048x3_S32x3_1_0_0_1_n_n : DotDims S32x2048 S2048x3 S32x3 where
  lhsContracting := [1]
  rhsContracting := [0]
  lhsNonContracting := [0]
  rhsNonContracting := [1]
  lhsBatch := []
  rhsBatch := []
  wf := dot_S32x2048_S2048x3_S32x3_1_0_0_1_n_n_wf

abbrev win0_0 : Pipeline.Window sig grid0 :=
  Pipeline.Window.ofSpec (Memref.whole main_v0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S8x256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S8x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S8x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S8x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S8x256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S8x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v8) S32x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S4096x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S2048x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S2048x3.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v14) S1x3.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S32x3.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S128x256x512 : Shape := ⟨3, ![128, 256, 512]⟩
abbrev S512x256 : Shape := ⟨2, ![512, 256]⟩
abbrev S1024x2048 : Shape := ⟨2, ![1024, 2048]⟩
abbrev S4096x2048 : Shape := ⟨2, ![4096, 2048]⟩
abbrev S2048 : Shape := ⟨1, ![2048]⟩
abbrev S2048x2048 : Shape := ⟨2, ![2048, 2048]⟩
abbrev S2048x3 : Shape := ⟨2, ![2048, 3]⟩
abbrev S3 : Shape := ⟨1, ![3]⟩
abbrev S128x256x256 : Shape := ⟨3, ![128, 256, 256]⟩
abbrev S_ : Shape := ⟨0, ![]⟩
abbrev S128x256 : Shape := ⟨2, ![128, 256]⟩
abbrev S128x256x1 : Shape := ⟨3, ![128, 256, 1]⟩
abbrev S128x256x1024 : Shape := ⟨3, ![128, 256, 1024]⟩
abbrev S128x256x2048 : Shape := ⟨3, ![128, 256, 2048]⟩
abbrev S128x2048 : Shape := ⟨2, ![128, 2048]⟩
abbrev S128x4096 : Shape := ⟨2, ![128, 4096]⟩
abbrev S1x2048 : Shape := ⟨2, ![1, 2048]⟩
abbrev S128x3 : Shape := ⟨2, ![128, 3]⟩
abbrev S1x3 : Shape := ⟨2, ![1, 3]⟩

abbrev nBuf : Space → Nat
  | .hbm => 56
  | .vmem => 0
  | .smem => 0
  | _ => 0

abbrev bufTy : (tb : Table) → Fin (tcTables nBuf tb) → BufTy
  | .hbm, ⟨0, _⟩ => ⟨S128x256x512, .f32⟩
  | .hbm, ⟨1, _⟩ => ⟨S128x256x512, .f32⟩
  | .hbm, ⟨2, _⟩ => ⟨S512x256, .f32⟩
  | .hbm, ⟨3, _⟩ => ⟨S1024x2048, .f32⟩
  | .hbm, ⟨4, _⟩ => ⟨S4096x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x3, .f32⟩
  | .hbm, ⟨9, _⟩ => ⟨S3, .f32⟩
  | .hbm, ⟨10, _⟩ => ⟨S128x256x256, .f32⟩
  | .hbm, ⟨11, _⟩ => ⟨S128x256x256, .f32⟩
  | .hbm, ⟨12, _⟩ => ⟨S128x256x256, .f32⟩
  | .hbm, ⟨13, _⟩ => ⟨S128x256x256, .f32⟩
  | .hbm, ⟨14, _⟩ => ⟨S128x256x256, .f32⟩
  | .hbm, ⟨15, _⟩ => ⟨S_, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256x1, .f32⟩
  | .hbm, ⟨21, _⟩ => ⟨S128x256x256, .f32⟩
  | .hbm, ⟨22, _⟩ => ⟨S128x256x256, .f32⟩
  | .hbm, ⟨23, _⟩ => ⟨S128x256x256, .f32⟩
  | .hbm, ⟨24, _⟩ => ⟨S_, .f32⟩
  | .hbm, ⟨25, _⟩ => ⟨S128x256, .f32⟩
  | .hbm, ⟨26, _⟩ => ⟨S128x256x1, .f32⟩
  | .hbm, ⟨27, _⟩ => ⟨S128x256x256, .f32⟩
  | .hbm, ⟨28, _⟩ => ⟨S128x256x256, .f32⟩
  | .hbm, ⟨29, _⟩ => ⟨S128x256x512, .f32⟩
  | .hbm, ⟨30, _⟩ => ⟨S128x256x512, .f32⟩
  | .hbm, ⟨31, _⟩ => ⟨S128x256x1024, .f32⟩
  | .hbm, ⟨32, _⟩ => ⟨S128x256x2048, .f32⟩
  | .hbm, ⟨33, _⟩ => ⟨S128x256x2048, .f32⟩
  | .hbm, ⟨34, _⟩ => ⟨S128x256x1024, .f32⟩
  | .hbm, ⟨35, _⟩ => ⟨S128x256x2048, .f32⟩
  | .hbm, ⟨36, _⟩ => ⟨S128x256x2048, .f32⟩
  | .hbm, ⟨37, _⟩ => ⟨S_, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x4096, .f32⟩
  | .hbm, ⟨42, _⟩ => ⟨S128x2048, .f32⟩
  | .hbm, ⟨43, _⟩ => ⟨S1x2048, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S1x2048, .f32⟩
  | .hbm, ⟨49, _⟩ => ⟨S128x2048, .f32⟩
  | .hbm, ⟨50, _⟩ => ⟨S128x2048, .f32⟩
  | .hbm, ⟨51, _⟩ => ⟨S128x2048, .f32⟩
  | .hbm, ⟨52, _⟩ => ⟨S128x3, .f32⟩
  | .hbm, ⟨53, _⟩ => ⟨S1x3, .f32⟩
  | .hbm, ⟨54, _⟩ => ⟨S128x3, .f32⟩
  | .hbm, ⟨55, _⟩ => ⟨S128x3, .f32⟩
  | _, _ => ⟨S128x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  reducesTo_S128x256x256_S128x256_d2 : S128x256x256.ReducesTo [2] S128x256
  h_S_ : 0 < S_.numel
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x256_0_1_2 : S128x256x1.BroadcastsInDim S128x256x256 (![0, 1, 2] : Fin 3 → Fin S128x256x256.rank)
  concatenates_S128x256x512_S128x256x512_S128x256x1024_d2 : Shape.Concatenates [S128x256x512, S128x256x512] S128x256x1024 2
  reducesTo_S128x256x2048_S128x2048_d1 : S128x256x2048.ReducesTo [1] S128x2048
  concatenates_S128x2048_S128x2048_S128x4096_d1 : Shape.Concatenates [S128x2048, S128x2048] S128x4096 1
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  dot_S128x256x512_S512x256_S128x256x256_2_0_01_1_n_n_wf : DotDims.WF S128x256x512 S512x256 S128x256x256 [2] [0] [0, 1] [1] [] []
  dot_S128x256x256_S128x256x256_S128x256x256_2_2_1_1_0_0_wf : DotDims.WF S128x256x256 S128x256x256 S128x256x256 [2] [2] [1] [1] [0] [0]
  dot_S128x256x256_S128x256x512_S128x256x512_2_1_1_2_0_0_wf : DotDims.WF S128x256x256 S128x256x512 S128x256x512 [2] [1] [1] [2] [0] [0]
  dot_S128x256x256_S128x256x512_S128x256x512_1_1_2_2_0_0_wf : DotDims.WF S128x256x256 S128x256x512 S128x256x512 [1] [1] [2] [2] [0] [0]
  dot_S128x256x1024_S1024x2048_S128x256x2048_2_0_01_1_n_n_wf : DotDims.WF S128x256x1024 S1024x2048 S128x256x2048 [2] [0] [0, 1] [1] [] []
  dot_S128x4096_S4096x2048_S128x2048_1_0_0_1_n_n_wf : DotDims.WF S128x4096 S4096x2048 S128x2048 [1] [0] [0] [1] [] []
  dot_S128x2048_S2048x2048_S128x2048_1_0_0_1_n_n_wf : DotDims.WF S128x2048 S2048x2048 S128x2048 [1] [0] [0] [1] [] []
  dot_S128x2048_S2048x3_S128x3_1_0_0_1_n_n_wf : DotDims.WF S128x2048 S2048x3 S128x3 [1] [0] [0] [1] [] []

variable [Facts₀]

def dot_S128x256x512_S512x256_S128x256x256_2_0_01_1_n_n : DotDims S128x256x512 S512x256 S128x256x256 where
  lhsContracting := [2]
  rhsContracting := [0]
  lhsNonContracting := [0, 1]
  rhsNonContracting := [1]
  lhsBatch := []
  rhsBatch := []
  wf := dot_S128x256x512_S512x256_S128x256x256_2_0_01_1_n_n_wf
def dot_S128x256x256_S128x256x256_S128x256x256_2_2_1_1_0_0 : DotDims S128x256x256 S128x256x256 S128x256x256 where
  lhsContracting := [2]
  rhsContracting := [2]
  lhsNonContracting := [1]
  rhsNonContracting := [1]
  lhsBatch := [0]
  rhsBatch := [0]
  wf := dot_S128x256x256_S128x256x256_S128x256x256_2_2_1_1_0_0_wf
def dot_S128x256x256_S128x256x512_S128x256x512_2_1_1_2_0_0 : DotDims S128x256x256 S128x256x512 S128x256x512 where
  lhsContracting := [2]
  rhsContracting := [1]
  lhsNonContracting := [1]
  rhsNonContracting := [2]
  lhsBatch := [0]
  rhsBatch := [0]
  wf := dot_S128x256x256_S128x256x512_S128x256x512_2_1_1_2_0_0_wf
def dot_S128x256x256_S128x256x512_S128x256x512_1_1_2_2_0_0 : DotDims S128x256x256 S128x256x512 S128x256x512 where
  lhsContracting := [1]
  rhsContracting := [1]
  lhsNonContracting := [2]
  rhsNonContracting := [2]
  lhsBatch := [0]
  rhsBatch := [0]
  wf := dot_S128x256x256_S128x256x512_S128x256x512_1_1_2_2_0_0_wf
def dot_S128x256x1024_S1024x2048_S128x256x2048_2_0_01_1_n_n : DotDims S128x256x1024 S1024x2048 S128x256x2048 where
  lhsContracting := [2]
  rhsContracting := [0]
  lhsNonContracting := [0, 1]
  rhsNonContracting := [1]
  lhsBatch := []
  rhsBatch := []
  wf := dot_S128x256x1024_S1024x2048_S128x256x2048_2_0_01_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x3_S128x3_1_0_0_1_n_n : DotDims S128x2048 S2048x3 S128x3 where
  lhsContracting := [1]
  rhsContracting := [0]
  lhsNonContracting := [0]
  rhsNonContracting := [1]
  lhsBatch := []
  rhsBatch := []
  wf := dot_S128x2048_S2048x3_S128x3_1_0_0_1_n_n_wf

class Facts : Prop extends Facts₀ where

variable [Facts]
-- ==== Proof.Spec.lean ====
/-
  The mathematics of the soft-alignment classifier, independent of any program.

  Arrays are functions from an index to an extended real. For a batch of B pairs of sentences of L tokens, each token
  a vector of E features (P the premises, H the hypotheses):
    proj X W        = tanh (X · W), token by token                                   [B, L, A]
    scores Fp Fh    = for each pair, the inner products of a premise token's projection with a hypothesis token's   [B, L, L]
    softmax S       = exp (S - row maximum) / (its row sum), along the last axis      [B, L, L]
    betas  At H     = Σ_h At(b, p, h) · H(b, h, e): each premise token's soft-aligned hypothesis   [B, L, E]
    alphas At P     = Σ_p At(b, p, h) · P(b, p, e): each hypothesis token's soft-aligned premise   [B, L, E]
    cmpSum X Y G    = Σ_p tanh ([X(b, p, ·), Y(b, p, ·)] · G)(f): compare each token with its aligned vector, then add over tokens  [B, F]
    head v …        = (tanh (tanh (v · W1 + b1) · W2 + b2)) · W3 + b3: the classifier's three layers  [B, N3]
  Every one of these treats the pairs of the batch independently (and `cmpSum` and the layers treat output columns
  independently), which is what lets a program compute them a block of pairs at a time: `*_rows` / `*_block` say so.
-/
import Idealize.ShloMosaic.PureOps.Ideal
import Idealize.ShloMosaic.Lib.ValueIdx

noncomputable section

namespace Cert.Spec

open Idealize.ShloMosaic Idealize.ShloMosaic.ValueIdx

/-- Rank-3, rank-2 and rank-1 arrays of extended reals. -/
abbrev T3 (a b c : ℕ) : Type := (⟨3, ![a, b, c]⟩ : Shape).Idx → EReal
abbrev M2 (a b : ℕ) : Type := (⟨2, ![a, b]⟩ : Shape).Idx → EReal
abbrev V1 (a : ℕ) : Type := (⟨1, ![a]⟩ : Shape).Idx → EReal

variable {B B' L E A : ℕ}

/-! ## Alignment -/

/-- tanh (X · W), token by token. -/
def proj (X : T3 B L E) (W : M2 E A) : T3 B L A :=
  fun i => Ideal.tanh (∑ e : Fin E, X (ix3 (i 0) (i 1) e) * W (ix2 e (i 2)))

theorem proj_apply (X : T3 B L E) (W : M2 E A) (b : Fin B) (p : Fin L) (a : Fin A) :
    proj X W (ix3 b p a) = Ideal.tanh (∑ e : Fin E, X (ix3 b p e) * W (ix2 e a)) := rfl

/-- The inner products of premise-token projections with hypothesis-token projections, pair by pair. -/
def scores (Fp Fh : T3 B L A) : T3 B L L :=
  fun i => ∑ a : Fin A, Fp (ix3 (i 0) (i 1) a) * Fh (ix3 (i 0) (i 2) a)

theorem scores_apply (Fp Fh : T3 B L A) (b : Fin B) (p h : Fin L) :
    scores Fp Fh (ix3 b p h) = ∑ a : Fin A, Fp (ix3 b p a) * Fh (ix3 b h a) := rfl

/-- The value the programs start a maximum from: the f32 pattern of minus infinity. -/
def negInf : EReal := Ideal.ofBits .f32 0xFF800000#32

/-- A row's maximum, as both programs take it: the fold of max from `negInf`, and once more against `negInf`. -/
def rowMax (S : T3 B L L) (b : Fin B) (p : Fin L) : EReal :=
  max negInf ((Finset.univ : Finset (Fin L)).fold max negInf fun h => S (ix3 b p h))

/-- exp (S - row maximum). -/
def expShift (S : T3 B L L) : T3 B L L := fun i => Ideal.exp (S i - rowMax S (i 0) (i 1))

theorem expShift_apply (S : T3 B L L) (b : Fin B) (p h : Fin L) :
    expShift S (ix3 b p h) = Ideal.exp (S (ix3 b p h) - rowMax S b p) := rfl

/-- The softmax along the last axis. -/
def softmax (S : T3 B L L) : T3 B L L :=
  fun i => Ideal.div (expShift S i) (∑ h : Fin L, expShift S (ix3 (i 0) (i 1) h))

theorem softmax_apply (S : T3 B L L) (b : Fin B) (p h : Fin L) :
    softmax S (ix3 b p h) = Ideal.div (expShift S (ix3 b p h)) (∑ h' : Fin L, expShift S (ix3 b p h')) := rfl

/-- Each premise token's soft-aligned hypothesis. -/
def betas (At : T3 B L L) (H : T3 B L E) : T3 B L E :=
  fun i => ∑ h : Fin L, At (ix3 (i 0) (i 1) h) * H (ix3 (i 0) h (i 2))

theorem betas_apply (At : T3 B L L) (H : T3 B L E) (b : Fin B) (p : Fin L) (e : Fin E) :
    betas At H (ix3 b p e) = ∑ h : Fin L, At (ix3 b p h) * H (ix3 b h e) := rfl

/-- Each hypothesis token's soft-aligned premise. -/
def alphas (At : T3 B L L) (P : T3 B L E) : T3 B L E :=
  fun i => ∑ p : Fin L, At (ix3 (i 0) p (i 1)) * P (ix3 (i 0) p (i 2))

theorem alphas_apply (At : T3 B L L) (P : T3 B L E) (b : Fin B) (h : Fin L) (e : Fin E) :
    alphas At P (ix3 b h e) = ∑ p : Fin L, At (ix3 b p h) * P (ix3 b p e) := rfl

/-- The attention weights of premises `P` against hypotheses `H` under the projection `W`. -/
def attn (P H : T3 B L E) (W : M2 E A) : T3 B L L := softmax (scores (proj P W) (proj H W))

def betasOf (P H : T3 B L E) (W : M2 E A) : T3 B L E := betas (attn P H W) H
def alphasOf (P H : T3 B L E) (W : M2 E A) : T3 B L E := alphas (attn P H W) P

/-! ## Compare and aggregate -/

variable {E1 E2 K FF FF' : ℕ}

/-- Two arrays joined along the last axis: the first `E1` columns from `X`, the next `E2` from `Y`. -/
def cat2 (X : T3 B L E1) (Y : T3 B L E2) : T3 B L K :=
  fun i => if h : (i 2).val < E1 then X (ix3 (i 0) (i 1) ⟨(i 2).val, h⟩)
    else if h2 : (i 2).val - E1 < E2 then Y (ix3 (i 0) (i 1) ⟨(i 2).val - E1, h2⟩) else 0

/-- tanh ([X, Y] · G), added over the tokens of each sentence. -/
def cmpSum (X : T3 B L E1) (Y : T3 B L E2) (G : M2 K FF) : M2 B FF :=
  fun i => ∑ p : Fin L, Ideal.tanh (∑ c : Fin K, cat2 (K := K) X Y (ix3 (i 0) p c) * G (ix2 c (i 1)))

theorem cmpSum_apply (X : T3 B L E1) (Y : T3 B L E2) (G : M2 K FF) (b : Fin B) (f : Fin FF) :
    cmpSum X Y G (ix2 b f) = ∑ p : Fin L, Ideal.tanh (∑ c : Fin K, cat2 (K := K) X Y (ix3 b p c) * G (ix2 c f)) := rfl

/-! ## The classifier's layers -/

variable {M N N1 N2 N3 : ℕ}

/-- A · W + b, the bias `b` added to every row. -/
def layer (Am : M2 M K) (W : M2 K N) (b : Fin N → EReal) : M2 M N :=
  fun i => (∑ k : Fin K, Am (ix2 (i 0) k) * W (ix2 k (i 1))) + b (i 1)

theorem layer_apply (Am : M2 M K) (W : M2 K N) (b : Fin N → EReal) (r : Fin M) (q : Fin N) :
    layer Am W b (ix2 r q) = (∑ k : Fin K, Am (ix2 r k) * W (ix2 k q)) + b q := rfl

/-- tanh, entry by entry. -/
def tanhM (Am : M2 M N) : M2 M N := fun i => Ideal.tanh (Am i)

/-- The classifier: two tanh layers and a linear one. -/
def head (v : M2 M K) (W1 : M2 K N1) (b1 : Fin N1 → EReal) (W2 : M2 N1 N2) (b2 : Fin N2 → EReal)
    (W3 : M2 N2 N3) (b3 : Fin N3 → EReal) : M2 M N3 :=
  layer (tanhM (layer (tanhM (layer v W1 b1)) W2 b2)) W3 b3

/-- Two matrices joined side by side: the first `N1` columns from `a`, the next `N2` from `b`. -/
def catCols (a : M2 M N1) (b : M2 M N2) : M2 M K :=
  fun i => if h : (i 1).val < N1 then a (ix2 (i 0) ⟨(i 1).val, h⟩)
    else if h2 : (i 1).val - N1 < N2 then b (ix2 (i 0) ⟨(i 1).val - N1, h2⟩) else 0

/-- A vector's entries by their one coordinate. -/
def vec (b : V1 N) : Fin N → EReal := fun q => b (ix1 q)

/-- The whole classifier: align, compare both ways, join the two aggregates, classify. -/
def logits {FF2 : ℕ} (P H : T3 B L E) (WF : M2 E A) (WG : M2 K FF) (W1 : M2 FF2 N1) (b1 : V1 N1) (W2 : M2 N1 N2) (b2 : V1 N2)
    (W3 : M2 N2 N3) (b3 : V1 N3) : M2 B N3 :=
  head (catCols (K := FF2) (cmpSum P (betasOf P H WF) WG) (cmpSum H (alphasOf P H WF) WG)) W1 (vec b1) W2 (vec b2) W3 (vec b3)

/-! ## Blocks: every function above treats the pairs of the batch (the rows) independently -/

/-- The sub-batch of pairs `f 0, f 1, …`. -/
def rows3 (f : Fin B' → Fin B) (X : T3 B L E) : T3 B' L E := fun i => X (ix3 (f (i 0)) (i 1) (i 2))
/-- The rows `f 0, f 1, …` of a matrix. -/
def rows2 (f : Fin B' → Fin B) (X : M2 B N) : M2 B' N := fun i => X (ix2 (f (i 0)) (i 1))
/-- The columns `g 0, g 1, …` of a matrix. -/
def cols2 (g : Fin FF' → Fin FF) (W : M2 K FF) : M2 K FF' := fun i => W (ix2 (i 0) (g (i 1)))

theorem proj_rows (f : Fin B' → Fin B) (X : T3 B L E) (W : M2 E A) : proj (rows3 f X) W = rows3 f (proj X W) := rfl
theorem scores_rows (f : Fin B' → Fin B) (Fp Fh : T3 B L A) :
    scores (rows3 f Fp) (rows3 f Fh) = rows3 f (scores Fp Fh) := rfl
theorem softmax_rows (f : Fin B' → Fin B) (S : T3 B L L) : softmax (rows3 f S) = rows3 f (softmax S) := rfl
theorem betas_rows (f : Fin B' → Fin B) (At : T3 B L L) (H : T3 B L E) :
    betas (rows3 f At) (rows3 f H) = rows3 f (betas At H) := rfl
theorem alphas_rows (f : Fin B' → Fin B) (At : T3 B L L) (P : T3 B L E) :
    alphas (rows3 f At) (rows3 f P) = rows3 f (alphas At P) := rfl

/-- The soft-aligned hypotheses of a sub-batch are the sub-batch of the soft-aligned hypotheses. -/
theorem betasOf_rows (f : Fin B' → Fin B) (P H : T3 B L E) (W : M2 E A) :
    betasOf (rows3 f P) (rows3 f H) W = rows3 f (betasOf P H W) := rfl
theorem alphasOf_rows (f : Fin B' → Fin B) (P H : T3 B L E) (W : M2 E A) :
    alphasOf (rows3 f P) (rows3 f H) W = rows3 f (alphasOf P H W) := rfl

/-- A block of `cmpSum`: the pairs `f ·` and the output columns `g ·` need only those pairs and those columns of `G`. -/
theorem cmpSum_block (f : Fin B' → Fin B) (g : Fin FF' → Fin FF) (X : T3 B L E1) (Y : T3 B L E2) (G : M2 K FF) :
    cmpSum (rows3 f X) (rows3 f Y) (cols2 g G) = fun i => cmpSum X Y G (ix2 (f (i 0)) (g (i 1))) := rfl

/-- The classifier of some rows is those rows of the classifier. -/
theorem head_rows (f : Fin B' → Fin B) (v : M2 B K) (W1 : M2 K N1) (b1 : Fin N1 → EReal) (W2 : M2 N1 N2)
    (b2 : Fin N2 → EReal) (W3 : M2 N2 N3) (b3 : Fin N3 → EReal) :
    head (rows2 f v) W1 b1 W2 b2 W3 b3 = rows2 f (head v W1 b1 W2 b2 W3 b3) := rfl

end Cert.Spec

end
-- ==== Proof.LibCat.lean ====
/-
  Two arrays joined along one axis, read at an index: the first piece's entries come first along that axis, then the
  second piece's. Stated for the two cases met here: rank-3 arrays joined along the last axis, and matrices joined
  side by side.
-/
import Idealize.ShloMosaic.Lib.Pipeline.Value
import Idealize.ShloMosaic.Lib.ValueIdx
import proofs.«113778_j36386962932383_1_alg».proof.Proof.Spec

noncomputable section

namespace Cert.LibCat

open Idealize.ShloMosaic Idealize.ShloMosaic.ValueIdx Cert.Spec

/-- A rank-3 concatenation along the last axis is `Spec.cat2`. -/
theorem concatenate_last3 {B L E1 E2 K : ℕ} (X : T3 B L E1) (Y : T3 B L E2)
    (h : Shape.Concatenates [(⟨3, ![B, L, E1]⟩ : Shape), ⟨3, ![B, L, E2]⟩] ⟨3, ![B, L, K]⟩ 2) :
    concatenate (⟨3, ![B, L, K]⟩ : Shape) 2 [⟨⟨3, ![B, L, E1]⟩, X⟩, ⟨⟨3, ![B, L, E2]⟩, Y⟩] h = Spec.cat2 X Y := by
  -- the joined extent is the sum of the two pieces' extents
  have hK : E1 + E2 = K := by
    have e := h.2.2
    simpa using e
  funext i
  obtain ⟨b, p, c, rfl⟩ : ∃ b p c, i = ix3 b p c := ⟨i 0, i 1, i 2, eq_ix3 i⟩
  by_cases hc : c.val < E1
  · -- the coordinate falls in the first piece
    refine Eq.trans ?_ (dif_pos hc).symm
    refine concatenate_pair_apply_left (2 : Fin 3) X Y h (ix3 b p c) rfl (ix3 b p ⟨c.val, hc⟩) ?_
    intro d
    match d with
    | ⟨0, _⟩ => rfl
    | ⟨1, _⟩ => rfl
    | ⟨2, _⟩ => rfl
  · -- the coordinate falls in the second piece, the first extent less
    have h2 : c.val - E1 < E2 := by have := c.isLt; omega
    refine Eq.trans ?_ ((dif_neg hc).trans (dif_pos h2)).symm
    refine concatenate_pair_apply_right (2 : Fin 3) X Y h (ix3 b p c) rfl rfl (ix3 b p ⟨c.val - E1, h2⟩) ?_ ?_
    · intro d hd
      match d, hd with
      | ⟨0, _⟩, _ => rfl
      | ⟨1, _⟩, _ => rfl
      | ⟨2, _⟩, hd => exact absurd rfl hd
    · show c.val - E1 + E1 = c.val
      omega

/-- Two matrices concatenated along the column axis are `Spec.catCols`. -/
theorem concatenate_cols2 {M N1 N2 K : ℕ} (a : M2 M N1) (b : M2 M N2)
    (h : Shape.Concatenates [(⟨2, ![M, N1]⟩ : Shape), ⟨2, ![M, N2]⟩] ⟨2, ![M, K]⟩ 1) :
    concatenate (⟨2, ![M, K]⟩ : Shape) 1 [⟨⟨2, ![M, N1]⟩, a⟩, ⟨⟨2, ![M, N2]⟩, b⟩] h = Spec.catCols a b := by
  -- the joined extent is the sum of the two pieces' extents
  have hK : N1 + N2 = K := by
    have e := h.2.2
    simpa using e
  funext i
  obtain ⟨r, c, rfl⟩ : ∃ r c, i = ix2 r c := ⟨i 0, i 1, eq_ix2 i⟩
  by_cases hc : c.val < N1
  · -- the column falls in the first matrix
    refine Eq.trans ?_ (dif_pos hc).symm
    refine concatenate_pair_apply_left (1 : Fin 2) a b h (ix2 r c) rfl (ix2 r ⟨c.val, hc⟩) ?_
    intro d
    match d with
    | ⟨0, _⟩ => rfl
    | ⟨1, _⟩ => rfl
  · -- the column falls in the second matrix, the first width less
    have h2 : c.val - N1 < N2 := by have := c.isLt; omega
    refine Eq.trans ?_ ((dif_neg hc).trans (dif_pos h2)).symm
    refine concatenate_pair_apply_right (1 : Fin 2) a b h (ix2 r c) rfl rfl (ix2 r ⟨c.val - N1, h2⟩) ?_ ?_
    · intro d hd
      match d, hd with
      | ⟨0, _⟩, _ => rfl
      | ⟨1, _⟩, hd => exact absurd rfl hd
    · show c.val - N1 + N1 = c.val
      omega

end Cert.LibCat

end
-- ==== Proof.KAlign.lean ====
/-
  The alignment kernel's two stored values, as functions of the blocks it loads: the soft-aligned hypotheses and the
  soft-aligned premises of the block's eight sentence pairs.
-/
import proofs.«113778_j36386962932383_1_alg».proof.Proof.Gen.KernelIdeal.Skeleton
import proofs.«113778_j36386962932383_1_alg».proof.Proof.Spec
import Idealize.ShloMosaic.PureOps.Ideal.Laws
import Idealize.ShloMosaic.Lib.Pipeline.Value
import Idealize.ShloMosaic.Lib.ValueIdx

noncomputable section

namespace Cert.KAlign

open Cert.KernelIdeal Cert.KernelIdeal.Gen Idealize.ShloMosaic Idealize.ShloMosaic.ValueIdx

/-! ## Layout operations read at coordinates -/

/-- Row `256·b + p` of the merged row axis: token `p` of pair `b`. -/
abbrev row (b : Fin 8) (p : Fin 256) : Fin 2048 := ⟨b.val * 256 + p.val, by omega⟩

/-- An `[8, 256, c]` array cast to `[2048, c]` reads, at row `256·b + p`, the operand at `(b, p, ·)`: the row-major
    position is the same. -/
theorem merge_apply {α : Type} {c : ℕ} (x : (⟨3, ![8, 256, c]⟩ : Shape).Idx → α)
    (h : (⟨3, ![8, 256, c]⟩ : Shape).ShapeCasts ⟨2, ![2048, c]⟩) (b : Fin 8) (p : Fin 256) (j : Fin c) :
    shapeCast ⟨2, ![2048, c]⟩ x h (ix2 (row b p) j) = x (ix3 b p j) :=
  shapeCast_apply x h _ _ (by
    rw [Shape.rowMajor_val_three, Shape.rowMajor_val_two]
    rfl)

/-- A `[2048, c]` array cast to `[8, 256, c]` reads, at `(b, p, ·)`, the operand's row `256·b + p`. -/
theorem split_apply {α : Type} {c : ℕ} (x : (⟨2, ![2048, c]⟩ : Shape).Idx → α)
    (h : (⟨2, ![2048, c]⟩ : Shape).ShapeCasts ⟨3, ![8, 256, c]⟩) (b : Fin 8) (p : Fin 256) (j : Fin c) :
    shapeCast ⟨3, ![8, 256, c]⟩ x h (ix3 b p j) = x (ix2 (row b p) j) :=
  shapeCast_apply x h _ _ (by
    rw [Shape.rowMajor_val_three, Shape.rowMajor_val_two]
    rfl)

/-- A per-row value `[8, 256]` made a column `[8, 256, 1]` and copied along the last axis reads, at `(b, p, h)`, the
    value of row `(b, p)`. -/
theorem keep_apply {α : Type} (x : S8x256.Idx → α) (hc : S8x256.ShapeCasts S8x256x1)
    (hb : S8x256x1.Broadcasts S8x256x256) (b : Fin 8) (p h : Fin 256) :
    broadcastTo S8x256x256 (shapeCast S8x256x1 x hc) hb (ix3 b p h) = x (ix2 b p) := by
  refine (broadcastTo_apply _ hb (ix3 b p h) (ix3 b p (0 : Fin 1)) fun ax => ?_).trans ?_
  · match ax with
    | ⟨0, _⟩ => rfl
    | ⟨1, _⟩ => rfl
    | ⟨2, _⟩ => rfl
  · refine shapeCast_apply x hc _ _ ?_
    rw [Shape.rowMajor_val_three, Shape.rowMajor_val_two]
    show b.val * 256 + p.val = (b.val * 256 + p.val) * 1 + 0
    omega

/-- The transpose of the last two axes reads, at `(b, p, q)`, the operand at `(b, q, p)`. -/
theorem tr_apply {α : Type} (x : S8x256x256.Idx → α) (h : S8x256x256.Transposes [0, 2, 1] S8x256x256)
    (b : Fin 8) (p q : Fin 256) :
    transpose S8x256x256 [0, 2, 1] x h (ix3 b p q) = x (ix3 b q p) :=
  transpose_apply [0, 2, 1] x h (ix3 b p q) (ix3 b q p) fun ax => by
    match ax with
    | ⟨0, _⟩ => rfl
    | ⟨1, _⟩ => rfl
    | ⟨2, _⟩ => rfl

/-! ## The three products read at coordinates -/

theorem lhsA_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhsA_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhsA_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhsA_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The token-by-token product with the projection matrix, into zero, at row `r` and column `a`: the sum over the
    features `e` of X(r, e) · W(e, a). -/
theorem mmA_apply (X : FVec Ideal S2048x512 .bf16) (W : FVec Ideal S512x256 .bf16) (r : Fin 2048) (a : Fin 256) :
    matmul dot_S2048x512_S512x256_S2048x256_1_0_0_1_n_n none X W (constant S2048x256 .f32 0x00000000#32) (ix2 r a)
      = ∑ e : Fin 512, X (ix2 r e) * W (ix2 e a) := by
  show FloatOps.matmul dot_S2048x512_S512x256_S2048x256_1_0_0_1_n_n none X W (constant S2048x256 .f32 0x00000000#32) (ix2 r a) = _
  rw [Ideal.matmul_constant_zero_apply, ← Equiv.sum_comp (contrEquiv1 dot_S2048x512_S512x256_S2048x256_1_0_0_1_n_n 512 rfl rfl).symm]
  refine Finset.sum_congr rfl fun e _ => ?_
  have hk := contrEquiv1_symm_val dot_S2048x512_S512x256_S2048x256_1_0_0_1_n_n 512 rfl rfl e
  have el : dot_S2048x512_S512x256_S2048x256_1_0_0_1_n_n.lhsIdx (ix2 r a) ((contrEquiv1 dot_S2048x512_S512x256_S2048x256_1_0_0_1_n_n 512 rfl rfl).symm e) = ix2 r e := funext fun ax => Fin.ext (by
    match ax with
    | ⟨0, _⟩ => exact lhsA_0 _ _
    | ⟨1, _⟩ => exact (lhsA_1 _ _).trans hk)
  have er : dot_S2048x512_S512x256_S2048x256_1_0_0_1_n_n.rhsIdx (ix2 r a) ((contrEquiv1 dot_S2048x512_S512x256_S2048x256_1_0_0_1_n_n 512 rfl rfl).symm e) = ix2 e a := funext fun ax => Fin.ext (by
    match ax with
    | ⟨0, _⟩ => exact (rhsA_0 _ _).trans hk
    | ⟨1, _⟩ => exact rhsA_1 _ _)
  rw [el, er]

theorem lhsB_0 (i : S8x256x256.Idx) (q : dot_S8x256x256_S8x256x256_S8x256x256_2_2_1_1_0_0.contr.Idx) :
    (dot_S8x256x256_S8x256x256_S8x256x256_2_2_1_1_0_0.lhsIdx i q 0).val = (i 0).val := by
  unfold DotDims.lhsIdx
  rw [dif_pos (show (0 : Fin S8x256x256.rank) ∈ dot_S8x256x256_S8x256x256_S8x256x256_2_2_1_1_0_0.lhsBatch by decide)]
  rfl
theorem lhsB_1 (i : S8x256x256.Idx) (q : dot_S8x256x256_S8x256x256_S8x256x256_2_2_1_1_0_0.contr.Idx) :
    (dot_S8x256x256_S8x256x256_S8x256x256_2_2_1_1_0_0.lhsIdx i q 1).val = (i 1).val := by
  unfold DotDims.lhsIdx
  rw [dif_neg (show ¬(1 : Fin S8x256x256.rank) ∈ dot_S8x256x256_S8x256x256_S8x256x256_2_2_1_1_0_0.lhsBatch by decide), dif_pos (show (1 : Fin S8x256x256.rank) ∈ dot_S8x256x256_S8x256x256_S8x256x256_2_2_1_1_0_0.lhsNonContracting by decide)]
  rfl
theorem lhsB_2 (i : S8x256x256.Idx) (q : dot_S8x256x256_S8x256x256_S8x256x256_2_2_1_1_0_0.contr.Idx) :
    (dot_S8x256x256_S8x256x256_S8x256x256_2_2_1_1_0_0.lhsIdx i q 2).val = (q ⟨0, by decide⟩).val :=
  dot_S8x256x256_S8x256x256_S8x256x256_2_2_1_1_0_0.lhsIdx_val_of_single rfl i q
theorem rhsB_0 (i : S8x256x256.Idx) (q : dot_S8x256x256_S8x256x256_S8x256x256_2_2_1_1_0_0.contr.Idx) :
    (dot_S8x256x256_S8x256x256_S8x256x256_2_2_1_1_0_0.rhsIdx i q 0).val = (i 0).val := by
  unfold DotDims.rhsIdx
  rw [dif_pos (show (0 : Fin S8x256x256.rank) ∈ dot_S8x256x256_S8x256x256_S8x256x256_2_2_1_1_0_0.rhsBatch by decide)]
  rfl
theorem rhsB_1 (i : S8x256x256.Idx) (q : dot_S8x256x256_S8x256x256_S8x256x256_2_2_1_1_0_0.contr.Idx) :
    (dot_S8x256x256_S8x256x256_S8x256x256_2_2_1_1_0_0.rhsIdx i q 1).val = (i 2).val := by
  unfold DotDims.rhsIdx
  rw [dif_neg (show ¬(1 : Fin S8x256x256.rank) ∈ dot_S8x256x256_S8x256x256_S8x256x256_2_2_1_1_0_0.rhsBatch by decide), dif_pos (show (1 : Fin S8x256x256.rank) ∈ dot_S8x256x256_S8x256x256_S8x256x256_2_2_1_1_0_0.rhsNonContracting by decide)]
  rfl
theorem rhsB_2 (i : S8x256x256.Idx) (q : dot_S8x256x256_S8x256x256_S8x256x256_2_2_1_1_0_0.contr.Idx) :
    (dot_S8x256x256_S8x256x256_S8x256x256_2_2_1_1_0_0.rhsIdx i q 2).val = (q ⟨0, by decide⟩).val :=
  dot_S8x256x256_S8x256x256_S8x256x256_2_2_1_1_0_0.rhsIdx_val_of_single rfl i q

/-- The pair-by-pair product of two projected blocks, both contracted on their last axis, into zero, at `(b, p, h)`: the
    inner product of premise token `p` with hypothesis token `h` of pair `b`. -/
theorem mmB_apply (Fp Fh : FVec Ideal S8x256x256 .bf16) (b : Fin 8) (p h : Fin 256) :
    matmul dot_S8x256x256_S8x256x256_S8x256x256_2_2_1_1_0_0 none Fp Fh (constant S8x256x256 .f32 0x00000000#32) (ix3 b p h)
      = ∑ a : Fin 256, Fp (ix3 b p a) * Fh (ix3 b h a) := by
  show FloatOps.matmul dot_S8x256x256_S8x256x256_S8x256x256_2_2_1_1_0_0 none Fp Fh (constant S8x256x256 .f32 0x00000000#32) (ix3 b p h) = _
  rw [Ideal.matmul_constant_zero_apply, ← Equiv.sum_comp (contrEquiv1 dot_S8x256x256_S8x256x256_S8x256x256_2_2_1_1_0_0 256 rfl rfl).symm]
  refine Finset.sum_congr rfl fun a _ => ?_
  have hk := contrEquiv1_symm_val dot_S8x256x256_S8x256x256_S8x256x256_2_2_1_1_0_0 256 rfl rfl a
  have el : dot_S8x256x256_S8x256x256_S8x256x256_2_2_1_1_0_0.lhsIdx (ix3 b p h) ((contrEquiv1 dot_S8x256x256_S8x256x256_S8x256x256_2_2_1_1_0_0 256 rfl rfl).symm a) = ix3 b p a := funext fun ax => Fin.ext (by
    match ax with
    | ⟨0, _⟩ => exact lhsB_0 _ _
    | ⟨1, _⟩ => exact lhsB_1 _ _
    | ⟨2, _⟩ => exact (lhsB_2 _ _).trans hk)
  have er : dot_S8x256x256_S8x256x256_S8x256x256_2_2_1_1_0_0.rhsIdx (ix3 b p h) ((contrEquiv1 dot_S8x256x256_S8x256x256_S8x256x256_2_2_1_1_0_0 256 rfl rfl).symm a) = ix3 b h a := funext fun ax => Fin.ext (by
    match ax with
    | ⟨0, _⟩ => exact rhsB_0 _ _
    | ⟨1, _⟩ => exact rhsB_1 _ _
    | ⟨2, _⟩ => exact (rhsB_2 _ _).trans hk)
  rw [el, er]

theorem lhsC_0 (i : S8x256x512.Idx) (q : dot_S8x256x256_S8x256x512_S8x256x512_2_1_1_2_0_0.contr.Idx) :
    (dot_S8x256x256_S8x256x512_S8x256x512_2_1_1_2_0_0.lhsIdx i q 0).val = (i 0).val := by
  unfold DotDims.lhsIdx
  rw [dif_pos (show (0 : Fin S8x256x256.rank) ∈ dot_S8x256x256_S8x256x512_S8x256x512_2_1_1_2_0_0.lhsBatch by decide)]
  rfl
theorem lhsC_1 (i : S8x256x512.Idx) (q : dot_S8x256x256_S8x256x512_S8x256x512_2_1_1_2_0_0.contr.Idx) :
    (dot_S8x256x256_S8x256x512_S8x256x512_2_1_1_2_0_0.lhsIdx i q 1).val = (i 1).val := by
  unfold DotDims.lhsIdx
  rw [dif_neg (show ¬(1 : Fin S8x256x256.rank) ∈ dot_S8x256x256_S8x256x512_S8x256x512_2_1_1_2_0_0.lhsBatch by decide), dif_pos (show (1 : Fin S8x256x256.rank) ∈ dot_S8x256x256_S8x256x512_S8x256x512_2_1_1_2_0_0.lhsNonContracting by decide)]
  rfl
theorem lhsC_2 (i : S8x256x512.Idx) (q : dot_S8x256x256_S8x256x512_S8x256x512_2_1_1_2_0_0.contr.Idx) :
    (dot_S8x256x256_S8x256x512_S8x256x512_2_1_1_2_0_0.lhsIdx i q 2).val = (q ⟨0, by decide⟩).val :=
  dot_S8x256x256_S8x256x512_S8x256x512_2_1_1_2_0_0.lhsIdx_val_of_single rfl i q
theorem rhsC_0 (i : S8x256x512.Idx) (q : dot_S8x256x256_S8x256x512_S8x256x512_2_1_1_2_0_0.contr.Idx) :
    (dot_S8x256x256_S8x256x512_S8x256x512_2_1_1_2_0_0.rhsIdx i q 0).val = (i 0).val := by
  unfold DotDims.rhsIdx
  rw [dif_pos (show (0 : Fin S8x256x512.rank) ∈ dot_S8x256x256_S8x256x512_S8x256x512_2_1_1_2_0_0.rhsBatch by decide)]
  rfl
theorem rhsC_1 (i : S8x256x512.Idx) (q : dot_S8x256x256_S8x256x512_S8x256x512_2_1_1_2_0_0.contr.Idx) :
    (dot_S8x256x256_S8x256x512_S8x256x512_2_1_1_2_0_0.rhsIdx i q 1).val = (q ⟨0, by decide⟩).val :=
  dot_S8x256x256_S8x256x512_S8x256x512_2_1_1_2_0_0.rhsIdx_val_of_single rfl i q
theorem rhsC_2 (i : S8x256x512.Idx) (q : dot_S8x256x256_S8x256x512_S8x256x512_2_1_1_2_0_0.contr.Idx) :
    (dot_S8x256x256_S8x256x512_S8x256x512_2_1_1_2_0_0.rhsIdx i q 2).val = (i 2).val := by
  unfold DotDims.rhsIdx
  rw [dif_neg (show ¬(2 : Fin S8x256x512.rank) ∈ dot_S8x256x256_S8x256x512_S8x256x512_2_1_1_2_0_0.rhsBatch by decide), dif_pos (show (2 : Fin S8x256x512.rank) ∈ dot_S8x256x256_S8x256x512_S8x256x512_2_1_1_2_0_0.rhsNonContracting by decide)]
  rfl

/-- The pair-by-pair product of a weight block (contracted on its last axis) with a token block (contracted on its token
    axis), into zero, at `(b, p, e)`: the sum over the tokens `h` of At(b, p, h) · H(b, h, e). -/
theorem mmC_apply (At : FVec Ideal S8x256x256 .bf16) (H : FVec Ideal S8x256x512 .bf16) (b : Fin 8) (p : Fin 256) (e : Fin 512) :
    matmul dot_S8x256x256_S8x256x512_S8x256x512_2_1_1_2_0_0 none At H (constant S8x256x512 .f32 0x00000000#32) (ix3 b p e)
      = ∑ h : Fin 256, At (ix3 b p h) * H (ix3 b h e) := by
  show FloatOps.matmul dot_S8x256x256_S8x256x512_S8x256x512_2_1_1_2_0_0 none At H (constant S8x256x512 .f32 0x00000000#32) (ix3 b p e) = _
  rw [Ideal.matmul_constant_zero_apply, ← Equiv.sum_comp (contrEquiv1 dot_S8x256x256_S8x256x512_S8x256x512_2_1_1_2_0_0 256 rfl rfl).symm]
  refine Finset.sum_congr rfl fun h _ => ?_
  have hk := contrEquiv1_symm_val dot_S8x256x256_S8x256x512_S8x256x512_2_1_1_2_0_0 256 rfl rfl h
  have el : dot_S8x256x256_S8x256x512_S8x256x512_2_1_1_2_0_0.lhsIdx (ix3 b p e) ((contrEquiv1 dot_S8x256x256_S8x256x512_S8x256x512_2_1_1_2_0_0 256 rfl rfl).symm h) = ix3 b p h := funext fun ax => Fin.ext (by
    match ax with
    | ⟨0, _⟩ => exact lhsC_0 _ _
    | ⟨1, _⟩ => exact lhsC_1 _ _
    | ⟨2, _⟩ => exact (lhsC_2 _ _).trans hk)
  have er : dot_S8x256x256_S8x256x512_S8x256x512_2_1_1_2_0_0.rhsIdx (ix3 b p e) ((contrEquiv1 dot_S8x256x256_S8x256x512_S8x256x512_2_1_1_2_0_0 256 rfl rfl).symm h) = ix3 b h e := funext fun ax => Fin.ext (by
    match ax with
    | ⟨0, _⟩ => exact rhsC_0 _ _
    | ⟨1, _⟩ => exact (rhsC_1 _ _).trans hk
    | ⟨2, _⟩ => exact rhsC_2 _ _)
  rw [el, er]

/-! ## The two row reductions read at coordinates -/

/-- The index the last-axis reduction reads at row `(b, p)` and position `k` is `(b, p, k)`. -/
theorem lift_apply (b : Fin 8) (p k : Fin 256) : reduces_S8x256x256_S8x256.lift (ix2 b p) k = ix3 b p k :=
  funext fun ax => Fin.ext (by
    match ax with
    | ⟨0, _⟩ => rfl
    | ⟨1, _⟩ => rfl
    | ⟨2, _⟩ => rfl)

/-- The maximum over the last axis from the accumulator −∞, at row `(b, p)`: the fold of max over the row. -/
theorem rowmax_apply (S : FVec Ideal S8x256x256 .f32) (hφ : FKind.Formats .f32)
    (hacc : (0xFF800000#32 : BitVec (FTy.bits .f32)) = FKind.maximumf.neutral .f32 hφ) (b : Fin 8) (p : Fin 256) :
    multiReduction .maximumf [2] S8x256 S 0xFF800000#32 reduces_S8x256x256_S8x256 hφ hacc (ix2 b p)
      = (Finset.univ : Finset (Fin 256)).fold max Spec.negInf fun h => S (ix3 b p h) := by
  refine (Ideal.multiReduction_maximumf_single S _ reduces_S8x256x256_S8x256 hφ hacc (ix2 b p)).trans ?_
  exact congrArg (fun f => (Finset.univ : Finset (Fin 256)).fold max Spec.negInf f)
    (funext fun k => congrArg S (lift_apply b p k))

/-- The sum over the last axis, at row `(b, p)`: the sum over the row. -/
theorem rowsum_apply (S : FVec Ideal S8x256x256 .f32) (hφ : FKind.Formats .f32)
    (hacc : (0x00000000#32 : BitVec (FTy.bits .f32)) = FKind.add.neutral .f32 hφ) (b : Fin 8) (p : Fin 256) :
    multiReduction .add [2] S8x256 S 0x00000000#32 reduces_S8x256x256_S8x256 hφ hacc (ix2 b p)
      = ∑ h : Fin 256, S (ix3 b p h) := by
  refine (Ideal.multiReduction_add_single S _ reduces_S8x256x256_S8x256 hφ hacc (ix2 b p)).trans ?_
  show ∑ k : Fin 256, S (reduces_S8x256x256_S8x256.lift (ix2 b p) k) = _
  exact Finset.sum_congr rfl fun k _ => congrArg S (lift_apply b p k)

/-! ## The stages of the attention weights -/

/-- tanh (X · W) token by token, through the merged row axis: the projection of a block. -/
def projK (x : FVec Ideal S8x256x512 .bf16) (w : FVec Ideal S512x256 .bf16) : FVec Ideal S8x256x256 .bf16 :=
  truncf .bf16 (shapeCast S8x256x256 (tanh (matmul dot_S2048x512_S512x256_S2048x256_1_0_0_1_n_n none
    (shapeCast S2048x512 x shapeCasts_S8x256x512_S2048x512) w (constant S2048x256 .f32 0x00000000#32)))
    shapeCasts_S2048x256_S8x256x256) bitsLt_bf16_f32

theorem projK_eq (x : FVec Ideal S8x256x512 .bf16) (w : FVec Ideal S512x256 .bf16) :
    projK x w = Spec.proj (B := 8) (L := 256) (E := 512) (A := 256) x w := by
  funext i
  obtain ⟨b, p, a, rfl⟩ : ∃ b p a, i = ix3 b p a := ⟨i 0, i 1, i 2, eq_ix3 i⟩
  show shapeCast S8x256x256 (tanh (matmul dot_S2048x512_S512x256_S2048x256_1_0_0_1_n_n none
    (shapeCast S2048x512 x shapeCasts_S8x256x512_S2048x512) w (constant S2048x256 .f32 0x00000000#32)))
    shapeCasts_S2048x256_S8x256x256 (ix3 b p a) = _
  rw [split_apply]
  show Ideal.tanh (matmul dot_S2048x512_S512x256_S2048x256_1_0_0_1_n_n none
    (shapeCast S2048x512 x shapeCasts_S8x256x512_S2048x512) w (constant S2048x256 .f32 0x00000000#32) (ix2 (row b p) a)) = _
  rw [mmA_apply, Spec.proj_apply]
  refine congrArg Ideal.tanh (Finset.sum_congr rfl fun e _ => ?_)
  rw [merge_apply]

/-- exp (S − row maximum), the row maximum taken from −∞ and once more against −∞, kept as a column and copied along the row. -/
def expK (S : FVec Ideal S8x256x256 .f32) : FVec Ideal S8x256x256 .f32 :=
  exp (subf S (broadcastTo S8x256x256 (shapeCast S8x256x1
    (maximumf (broadcast S8x256 (Scalar.ofBits .f32 0xFF800000#32))
      (multiReduction .maximumf [2] S8x256 S 0xFF800000#32 reduces_S8x256x256_S8x256 (.inl rfl) rfl))
    shapeCasts_S8x256_S8x256x1) broadcasts_S8x256x1_S8x256x256))

theorem expK_eq (S : FVec Ideal S8x256x256 .f32) : expK S = Spec.expShift (B := 8) (L := 256) S := by
  funext i
  obtain ⟨b, p, h, rfl⟩ : ∃ b p h, i = ix3 b p h := ⟨i 0, i 1, i 2, eq_ix3 i⟩
  show Ideal.exp (S (ix3 b p h) - broadcastTo S8x256x256 (shapeCast S8x256x1
    (maximumf (broadcast S8x256 (Scalar.ofBits .f32 0xFF800000#32))
      (multiReduction .maximumf [2] S8x256 S 0xFF800000#32 reduces_S8x256x256_S8x256 (.inl rfl) rfl))
    shapeCasts_S8x256_S8x256x1) broadcasts_S8x256x1_S8x256x256 (ix3 b p h)) = _
  rw [keep_apply]
  show Ideal.exp (S (ix3 b p h) - max Spec.negInf
    (multiReduction .maximumf [2] S8x256 S 0xFF800000#32 reduces_S8x256x256_S8x256 (.inl rfl) rfl (ix2 b p))) = _
  exact congrArg (fun m => Ideal.exp (S (ix3 b p h) - max Spec.negInf m)) (rowmax_apply S (.inl rfl) rfl b p)

/-- The softmax along the last axis: exp (S − row maximum) divided by its row sum, the sum kept as a column and copied
    along the row. -/
def softK (S : FVec Ideal S8x256x256 .f32) : FVec Ideal S8x256x256 .bf16 :=
  truncf .bf16 (divf (expK S) (broadcastTo S8x256x256 (shapeCast S8x256x1
    (multiReduction .add [2] S8x256 (expK S) 0x00000000#32 reduces_S8x256x256_S8x256 (.inl rfl) rfl)
    shapeCasts_S8x256_S8x256x1) broadcasts_S8x256x1_S8x256x256)) bitsLt_bf16_f32

theorem softK_eq (S : FVec Ideal S8x256x256 .f32) : softK S = Spec.softmax (B := 8) (L := 256) S := by
  funext i
  obtain ⟨b, p, h, rfl⟩ : ∃ b p h, i = ix3 b p h := ⟨i 0, i 1, i 2, eq_ix3 i⟩
  show Ideal.div (expK S (ix3 b p h)) (broadcastTo S8x256x256 (shapeCast S8x256x1
    (multiReduction .add [2] S8x256 (expK S) 0x00000000#32 reduces_S8x256x256_S8x256 (.inl rfl) rfl)
    shapeCasts_S8x256_S8x256x1) broadcasts_S8x256x1_S8x256x256 (ix3 b p h)) = _
  rw [keep_apply, Spec.softmax_apply]
  refine (congrArg (fun m => Ideal.div (expK S (ix3 b p h)) m) (rowsum_apply (expK S) (.inl rfl) rfl b p)).trans ?_
  rw [expK_eq]

/-- The inner products of two projected blocks, pair by pair. -/
theorem scoresK_eq (Fp Fh : FVec Ideal S8x256x256 .bf16) :
    matmul dot_S8x256x256_S8x256x256_S8x256x256_2_2_1_1_0_0 none Fp Fh (constant S8x256x256 .f32 0x00000000#32)
      = Spec.scores (B := 8) (L := 256) (A := 256) Fp Fh := by
  funext i
  obtain ⟨b, p, h, rfl⟩ : ∃ b p h, i = ix3 b p h := ⟨i 0, i 1, i 2, eq_ix3 i⟩
  rw [mmB_apply, Spec.scores_apply]

/-! ## The payloads -/

/-- The kernel's attention weights are the softmax of the scores of the two projected blocks. -/
theorem pay3_eq (x0 x1 : Vec Ideal S8x256x512 .bf16) (x2 : Vec Ideal S512x256 .bf16) :
    k0_pay3 (F := Ideal) x0 x1 x2 = Spec.attn (B := 8) (L := 256) (E := 512) (A := 256) x0 x1 x2 := by
  have h : k0_pay3 (F := Ideal) x0 x1 x2
      = softK (matmul dot_S8x256x256_S8x256x256_S8x256x256_2_2_1_1_0_0 none
          (projK (shapeCast S8x256x512 x0 shapeCasts_S8x256x512_S8x256x512) (shapeCast S512x256 x2 shapeCasts_S512x256_S512x256))
          (projK (shapeCast S8x256x512 x1 shapeCasts_S8x256x512_S8x256x512) (shapeCast S512x256 x2 shapeCasts_S512x256_S512x256))
          (constant S8x256x256 .f32 0x00000000#32)) := rfl
  rw [h, shapeCast_self, shapeCast_self, shapeCast_self, projK_eq, projK_eq, scoresK_eq, softK_eq]
  rfl

theorem pay4_eq (x0 x1 : Vec Ideal S8x256x512 .bf16) (x2 : Vec Ideal S512x256 .bf16) :
    k0_pay4 (F := Ideal) x0 x1 x2 = Spec.betasOf (B := 8) (L := 256) (E := 512) (A := 256) x0 x1 x2 := by
  funext i
  obtain ⟨b, p, e, rfl⟩ : ∃ b p e, i = ix3 b p e := ⟨i 0, i 1, i 2, eq_ix3 i⟩
  show matmul dot_S8x256x256_S8x256x512_S8x256x512_2_1_1_2_0_0 none (k0_pay3 (F := Ideal) x0 x1 x2)
    (k0_pay2 (F := Ideal) x1) (constant S8x256x512 .f32 0x00000000#32) (ix3 b p e) = _
  have h2 : k0_pay2 (F := Ideal) x1 = x1 := shapeCast_self _ _
  rw [mmC_apply, pay3_eq, h2]
  exact (Spec.betas_apply _ _ b p e).symm

theorem pay5_eq (x0 x1 : Vec Ideal S8x256x512 .bf16) (x2 : Vec Ideal S512x256 .bf16) :
    k0_pay5 (F := Ideal) x0 x1 x2 = Spec.alphasOf (B := 8) (L := 256) (E := 512) (A := 256) x0 x1 x2 := by
  funext i
  obtain ⟨b, h, e, rfl⟩ : ∃ b h e, i = ix3 b h e := ⟨i 0, i 1, i 2, eq_ix3 i⟩
  show matmul dot_S8x256x256_S8x256x512_S8x256x512_2_1_1_2_0_0 none
    (transpose S8x256x256 [0, 2, 1] (k0_pay3 (F := Ideal) x0 x1 x2) transposes_S8x256x256_p0_2_1_S8x256x256)
    (k0_pay1 (F := Ideal) x0) (constant S8x256x512 .f32 0x00000000#32) (ix3 b h e) = _
  have h1 : k0_pay1 (F := Ideal) x0 = x0 := shapeCast_self _ _
  rw [mmC_apply, pay3_eq, h1]
  refine (Finset.sum_congr rfl fun p _ => ?_).trans (Spec.alphas_apply _ _ b h e).symm
  rw [tr_apply]

end Cert.KAlign

end
-- ==== Proof.Final0.lean ====
/-
  The alignment region's two result arrays after the region has run, as whole-array functions of the arrays the region
  finds: grid point t handles the eight sentence pairs 8t … 8t+7, and the alignment of a block of pairs is that block of
  the alignment of all pairs, so the blocks the points write back tile the two results. The region's input arrays end as
  they were.
-/
import proofs.«113778_j36386962932383_1_alg».proof.Proof.Gen.KernelIdeal.Frame
import Idealize.ShloMosaic.Lib.Pipeline.Value
import proofs.«113778_j36386962932383_1_alg».proof.Proof.Spec
import proofs.«113778_j36386962932383_1_alg».proof.Proof.KAlign

set_option maxRecDepth 16384

noncomputable section

namespace Cert.Final0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the sixteen grid points: windows 0, 1, 3, 4 sit at block (t, 0, 0),
    window 2 at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 16 := lt_of_lt_of_eq t.isLt N_0

/-- The eight sentence pairs grid point t handles: 8t, …, 8t + 7. -/
def rowsOf (t : Fin cfg0.N) : Fin 8 → Fin 128 :=
  fun b => ⟨8 * t.val + b.val, by have h1 := t_lt t; have h2 := b.isLt; omega⟩

/-- Window 0's block at point t, read off an array, is the sub-batch of pairs 8t … 8t+7. -/
theorem read_blk0 (t : Fin cfg0.N) (X : Spec.T3 128 256 512) :
    ((cfg0.win 0).blk t).view.read (Elt Ideal) X = Spec.rows3 (rowsOf t) X := by
  obtain ⟨e0, e1, e2, -⟩ := idx_facts t
  funext j
  show X (((cfg0.win 0).blk t).view.emb j) = X (ix3 (rowsOf t (j 0)) (j 1) (j 2))
  refine congrArg X ?_
  funext a; apply Fin.ext
  match a with
  | ⟨0, _⟩ => show win0_0.index t (0 : Fin 3) * 8 + 1 * (j 0).val = 8 * t.val + (j 0).val; omega
  | ⟨1, _⟩ => show win0_0.index t (1 : Fin 3) * 256 + 1 * (j 1).val = (j 1).val; omega
  | ⟨2, _⟩ => show win0_0.index t (2 : Fin 3) * 512 + 1 * (j 2).val = (j 2).val; omega

/-- Window 1's block at point t is the same sub-batch of its array. -/
theorem read_blk1 (t : Fin cfg0.N) (X : Spec.T3 128 256 512) :
    ((cfg0.win 1).blk t).view.read (Elt Ideal) X = Spec.rows3 (rowsOf t) X := by
  obtain ⟨-, -, -, e0, e1, e2, -⟩ := idx_facts t
  funext j
  show X (((cfg0.win 1).blk t).view.emb j) = X (ix3 (rowsOf t (j 0)) (j 1) (j 2))
  refine congrArg X ?_
  funext a; apply Fin.ext
  match a with
  | ⟨0, _⟩ => show win0_1.index t (0 : Fin 3) * 8 + 1 * (j 0).val = 8 * t.val + (j 0).val; omega
  | ⟨1, _⟩ => show win0_1.index t (1 : Fin 3) * 256 + 1 * (j 1).val = (j 1).val; omega
  | ⟨2, _⟩ => show win0_1.index t (2 : Fin 3) * 512 + 1 * (j 2).val = (j 2).val; omega

/-- Window 2's block at every point is its whole array (the projection matrix). -/
theorem read_blk2 (t : Fin cfg0.N) (X : Spec.M2 512 256) :
    ((cfg0.win 2).blk t).view.read (Elt Ideal) X = X := by
  obtain ⟨-, -, -, -, -, -, e0, e1, -⟩ := idx_facts t
  funext j
  show X (((cfg0.win 2).blk t).view.emb j) = X j
  refine congrArg X ?_
  funext a; apply Fin.ext
  match a with
  | ⟨0, _⟩ => show win0_2.index t (0 : Fin 2) * 512 + 1 * (j 0).val = (j 0).val; omega
  | ⟨1, _⟩ => show win0_2.index t (1 : Fin 2) * 256 + 1 * (j 1).val = (j 1).val; omega

/-- Result window 3's block at point t, read off an array, is the sub-batch of pairs 8t … 8t+7. -/
theorem read_blk3 (t : Fin cfg0.N) (X : Spec.T3 128 256 512) :
    ((cfg0.win 3).blk t).view.read (Elt Ideal) X = Spec.rows3 (rowsOf t) X := by
  obtain ⟨-, -, -, -, -, -, -, -, e0, e1, e2, -⟩ := idx_facts t
  funext j
  show X (((cfg0.win 3).blk t).view.emb j) = X (ix3 (rowsOf t (j 0)) (j 1) (j 2))
  refine congrArg X ?_
  funext a; apply Fin.ext
  match a with
  | ⟨0, _⟩ => show win0_3.index t (0 : Fin 3) * 8 + 1 * (j 0).val = 8 * t.val + (j 0).val; omega
  | ⟨1, _⟩ => show win0_3.index t (1 : Fin 3) * 256 + 1 * (j 1).val = (j 1).val; omega
  | ⟨2, _⟩ => show win0_3.index t (2 : Fin 3) * 512 + 1 * (j 2).val = (j 2).val; omega

/-- Likewise result window 4. -/
theorem read_blk4 (t : Fin cfg0.N) (X : Spec.T3 128 256 512) :
    ((cfg0.win 4).blk t).view.read (Elt Ideal) X = Spec.rows3 (rowsOf t) X := by
  obtain ⟨-, -, -, -, -, -, -, -, -, -, -, e0, e1, e2⟩ := idx_facts t
  funext j
  show X (((cfg0.win 4).blk t).view.emb j) = X (ix3 (rowsOf t (j 0)) (j 1) (j 2))
  refine congrArg X ?_
  funext a; apply Fin.ext
  match a with
  | ⟨0, _⟩ => show win0_4.index t (0 : Fin 3) * 8 + 1 * (j 0).val = 8 * t.val + (j 0).val; omega
  | ⟨1, _⟩ => show win0_4.index t (1 : Fin 3) * 256 + 1 * (j 1).val = (j 1).val; omega
  | ⟨2, _⟩ => show win0_4.index t (2 : Fin 3) * 512 + 1 * (j 2).val = (j 2).val; omega

/-- The three input blocks at point t, as sub-batches of the arrays the region finds. -/
theorem iblk0_0 (c : Dev nD) (t : Fin cfg0.N) : iblk0 (F := Ideal) V c 0 t = Spec.rows3 (rowsOf t) (V c main_v0) :=
  read_blk0 t (V c main_v0)
theorem iblk0_1 (c : Dev nD) (t : Fin cfg0.N) : iblk0 (F := Ideal) V c 1 t = Spec.rows3 (rowsOf t) (V c main_v1) :=
  read_blk1 t (V c main_v1)
theorem iblk0_2 (c : Dev nD) (t : Fin cfg0.N) : iblk0 (F := Ideal) V c 2 t = V c main_v2 :=
  read_blk2 t (V c main_v2)

/-- What point t writes back to result window 3 is block t of the soft-aligned hypotheses of all pairs. -/
theorem flushed3_eq (c : Dev nD) (t : Fin cfg0.N) :
    (dat0 (F := Ideal) V c).flushed 3 t = ((cfg0.win 3).blk t).view.read (Elt Ideal)
      (Spec.betasOf (B := 128) (L := 256) (E := 512) (A := 256) (V c main_v0) (V c main_v1) (V c main_v2)) := by
  show (cfg0.win 3).cut (grid0.coords t) ((dat0 V c).after 3 t) = _
  rw [after0_3]
  unfold out0_3
  rw [View.canon_unit_zero hz3]
  simp only [View.ld_unit_zero (S := S8x256x512) hz3, View.ld_unit_zero (S := S512x256) hz2]
  rw [KAlign.pay4_eq, iblk0_0, iblk0_1, iblk0_2, Spec.betasOf_rows, read_blk3]
  rfl

/-- Likewise result window 4: block t of the soft-aligned premises of all pairs. -/
theorem flushed4_eq (c : Dev nD) (t : Fin cfg0.N) :
    (dat0 (F := Ideal) V c).flushed 4 t = ((cfg0.win 4).blk t).view.read (Elt Ideal)
      (Spec.alphasOf (B := 128) (L := 256) (E := 512) (A := 256) (V c main_v0) (V c main_v1) (V c main_v2)) := by
  show (cfg0.win 4).cut (grid0.coords t) ((dat0 V c).after 4 t) = _
  rw [after0_4]
  unfold out0_4
  rw [View.canon_unit_zero hz3]
  simp only [View.ld_unit_zero (S := S8x256x512) hz3, View.ld_unit_zero (S := S512x256) hz2]
  rw [KAlign.pay5_eq, iblk0_0, iblk0_1, iblk0_2, Spec.alphasOf_rows, read_blk4]
  rfl

/-- An index of result array 3 is in point t's block iff each coordinate is in the block's range on its axis. -/
theorem mem_blk3 (t : Fin cfg0.N) (i : S128x256x512.Idx) :
    i ∈ ((cfg0.win 3).blk t).view.set ↔ ∀ a : Fin 3, win0_3.index t a * S8x256x512.size a ≤ (i a).val
      ∧ (i a).val < win0_3.index t a * S8x256x512.size a + S8x256x512.size a := by
  show i ∈ ((View.whole main_v4_0).slice (win0_3.rect t)).set ↔ _
  rw [View.set_slice_whole, Rect.mem_set_unit]
  exact Iff.rfl

theorem mem_blk4 (t : Fin cfg0.N) (i : S128x256x512.Idx) :
    i ∈ ((cfg0.win 4).blk t).view.set ↔ ∀ a : Fin 3, win0_4.index t a * S8x256x512.size a ≤ (i a).val
      ∧ (i a).val < win0_4.index t a * S8x256x512.size a + S8x256x512.size a := by
  show i ∈ ((View.whole main_v4_1).slice (win0_4.rect t)).set ↔ _
  rw [View.set_slice_whole, Rect.mem_set_unit]
  exact Iff.rfl

/-- The grid point that handles pair b: b / 8. -/
def pointOf (b : Fin 128) : Fin cfg0.N := ⟨b.val / 8, lt_of_lt_of_eq (by have := b.isLt; omega) N_0.symm⟩

/-- Every index of result array 3 is in the block of the point that handles its pair. -/
theorem cover3 (i : S128x256x512.Idx) :
    ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 512 := (i 2).isLt
  refine ⟨pointOf (i 0), flush0_3 _, ?_⟩
  rw [mem_blk3]
  obtain ⟨-, -, -, -, -, -, -, -, e0, e1, e2, -⟩ := idx_facts (pointOf (i 0))
  have hp : (pointOf (i 0)).val = (i 0).val / 8 := rfl
  intro a
  match a with
  | ⟨0, _⟩ => show win0_3.index (pointOf (i 0)) (0 : Fin 3) * 8 ≤ (i 0).val ∧ (i 0).val < win0_3.index (pointOf (i 0)) (0 : Fin 3) * 8 + 8; omega
  | ⟨1, _⟩ => show win0_3.index (pointOf (i 0)) (1 : Fin 3) * 256 ≤ (i 1).val ∧ (i 1).val < win0_3.index (pointOf (i 0)) (1 : Fin 3) * 256 + 256; omega
  | ⟨2, _⟩ => show win0_3.index (pointOf (i 0)) (2 : Fin 3) * 512 ≤ (i 2).val ∧ (i 2).val < win0_3.index (pointOf (i 0)) (2 : Fin 3) * 512 + 512; omega

theorem cover4 (i : S128x256x512.Idx) :
    ∃ t : Fin cfg0.N, (cfg0.win 4).flush t = true ∧ i ∈ ((cfg0.win 4).blk t).view.set := by
  have hi0 : (i 0).val < 128 := (i 0).isLt
  have hi1 : (i 1).val < 256 := (i 1).isLt
  have hi2 : (i 2).val < 512 := (i 2).isLt
  refine ⟨pointOf (i 0), flush0_4 _, ?_⟩
  rw [mem_blk4]
  obtain ⟨-, -, -, -, -, -, -, -, -, -, -, e0, e1, e2⟩ := idx_facts (pointOf (i 0))
  have hp : (pointOf (i 0)).val = (i 0).val / 8 := rfl
  intro a
  match a with
  | ⟨0, _⟩ => show win0_4.index (pointOf (i 0)) (0 : Fin 3) * 8 ≤ (i 0).val ∧ (i 0).val < win0_4.index (pointOf (i 0)) (0 : Fin 3) * 8 + 8; omega
  | ⟨1, _⟩ => show win0_4.index (pointOf (i 0)) (1 : Fin 3) * 256 ≤ (i 1).val ∧ (i 1).val < win0_4.index (pointOf (i 0)) (1 : Fin 3) * 256 + 256; omega
  | ⟨2, _⟩ => show win0_4.index (pointOf (i 0)) (2 : Fin 3) * 512 ≤ (i 2).val ∧ (i 2).val < win0_4.index (pointOf (i 0)) (2 : Fin 3) * 512 + 512; omega

theorem final0_3 (c : Dev nD) :
    (dat0 (F := Ideal) V c).arrAt 3 cfg0.N
      = Spec.betasOf (B := 128) (L := 256) (E := 512) (A := 256) (V c main_v0) (V c main_v1) (V c main_v2) :=
  (dat0 V c).arrAt_eq_of_cover 3 _ (fun t _ => flushed3_eq V c t) cover3

theorem final0_4 (c : Dev nD) :
    (dat0 (F := Ideal) V c).arrAt 4 cfg0.N
      = Spec.alphasOf (B := 128) (L := 256) (E := 512) (A := 256) (V c main_v0) (V c main_v1) (V c main_v2) :=
  (dat0 V c).arrAt_eq_of_cover 4 _ (fun t _ => flushed4_eq V c t) cover4

/-- No grid point writes an input window back. -/
theorem noflush0 : ∀ t : Fin cfg0.N, (cfg0.win 0).flush t = false := (by decide +kernel : ∀ t : Fin grid0.N, _)
theorem noflush1 : ∀ t : Fin cfg0.N, (cfg0.win 1).flush t = false := (by decide +kernel : ∀ t : Fin grid0.N, _)

/-- The premises' array (input window 0) is not written. -/
theorem kept0_0 (c : Dev nD) : (dat0 (F := Ideal) V c).arrAt 0 cfg0.N = V c main_v0 := by
  funext i
  rw [(dat0 V c).arrAt_apply_of_forall_not_mem 0 cfg0.N i (fun t _ hf => absurd hf (by rw [noflush0 t]; decide)), A_eq0]

/-- The hypotheses' array (input window 1) is not written. -/
theorem kept0_1 (c : Dev nD) : (dat0 (F := Ideal) V c).arrAt 1 cfg0.N = V c main_v1 := by
  funext i
  rw [(dat0 V c).arrAt_apply_of_forall_not_mem 1 cfg0.N i (fun t _ hf => absurd hf (by rw [noflush1 t]; decide)), A_eq0]

end Cert.Final0

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.KCompare.lean ====
/-
  The compare kernel's stored value, as a function of the blocks it loads: for eight sentence pairs and 512 output
  features, tanh of the joined token vectors times the weight block, added over the tokens.

  The value is read entry by entry. At the pair b and the feature f it is a sum over the tokens p (the one reduced
  axis); the summand is the entry (b, p, f) of a [2048, 512] array read back as [8, 256, 512], which is its row
  256·b + p; that array is tanh of a plain matrix product, whose entry is the sum over the 1024 joined features c of
  the left operand's (256·b + p, c) entry (the joined token vectors' (b, p, c) entry, by the same row-major reading)
  times the weight's (c, f) entry. This is `Spec.cmpSum` term by term.
-/
import proofs.«113778_j36386962932383_1_alg».proof.Proof.Gen.KernelIdeal.Skeleton
import proofs.«113778_j36386962932383_1_alg».proof.Proof.Spec
import proofs.«113778_j36386962932383_1_alg».proof.Proof.LibCat
import proofs.«113778_j36386962932383_1_alg».proof.Proof.LibPlainMatmul
import proofs.«113778_j36386962932383_1_alg».proof.Proof.LibLayoutCols
import Idealize.ShloMosaic.PureOps.Ideal.Laws

noncomputable section

namespace Cert.KCompare

open Cert.KernelIdeal Cert.KernelIdeal.Gen Idealize.ShloMosaic Idealize.ShloMosaic.ValueIdx

/-- The row of a [2048, ·] array that holds token `p` of pair `b`: row-major, 256·b + p. -/
def row (b : Fin 8) (p : Fin 256) : Fin 2048 := ⟨b.val * 256 + p.val, by have := b.isLt; have := p.isLt; omega⟩

/-- The product of a [2048, 1024] by a [1024, 512] matrix into the zero splat, at (r, f): Σ_c A(r, c) · W(c, f).
    This product's record of contracted and free axes is the plain one (equal field by field). -/
theorem mm_apply (A : FVec Ideal S2048x1024 .bf16) (W : FVec Ideal S1024x512 .bf16) (r : Fin 2048) (f : Fin 512) :
    matmul dot_S2048x1024_S1024x512_S2048x512_1_0_0_1_n_n none A W (constant (F := Ideal) S2048x512 .f32 0x00000000#32) (ix2 r f)
      = ∑ c : Fin 1024, A (ix2 r c) * W (ix2 c f) :=
  LibPlainMatmul.matmul_plain_zero_apply (m := 2048) (k := 1024) (n := 512) none A W r f

/-- A [2048, 512] array read back as [8, 256, 512]: the entry (b, p, f) is the entry (256·b + p, f). -/
theorem cast_back_apply {α : Type} (y : S2048x512.Idx → α) (b : Fin 8) (p : Fin 256) (f : Fin 512) :
    shapeCast S8x256x512 y shapeCasts_S2048x512_S8x256x512 (ix3 b p f) = y (ix2 (row b p) f) :=
  shapeCast_apply y _ _ _ (by
    rw [Shape.rowMajor_val_two, Shape.rowMajor_val_three]
    rfl)

/-- The joined [8, 256, 1024] array read as [2048, 1024]: the entry (256·b + p, c) is the entry (b, p, c). -/
theorem cast_rows_apply {α : Type} (y : S8x256x1024.Idx → α) (b : Fin 8) (p : Fin 256) (c : Fin 1024) :
    shapeCast S2048x1024 y shapeCasts_S8x256x1024_S2048x1024 (ix2 (row b p) c) = y (ix3 b p c) :=
  LibLayoutCols.shapeCast_abc_nc_apply y shapeCasts_S8x256x1024_S2048x1024 b p (row b p) rfl c

/-- The index the sum over tokens inserts into (b, f) at the token p is (b, p, f). -/
theorem lift_eq (b : Fin 8) (f : Fin 512) (p : Fin 256) :
    reduces_S8x256x512_S8x512.lift (ix2 b f) p = ix3 b p f := by
  funext a
  apply Fin.ext
  match a with
  | ⟨0, _⟩ => rfl
  | ⟨1, _⟩ => rfl
  | ⟨2, _⟩ => rfl

theorem pay1_eq (x0 x1 : Vec Ideal S8x256x512 .bf16) (x2 : Vec Ideal S1024x512 .bf16) :
    k1_pay1 (F := Ideal) x0 x1 x2 = Spec.cmpSum (B := 8) (L := 256) (E1 := 512) (E2 := 512) (K := 1024) (FF := 512) x0 x1 x2 := by
  funext j
  obtain ⟨b, f, rfl⟩ : ∃ (b : Fin 8) (f : Fin 512), j = ix2 b f := ⟨j 0, j 1, eq_ix2 j⟩
  unfold k1_pay1
  -- the reduction over axis 1 is the sum over the tokens
  refine (Ideal.multiReduction_add_single _ _ reduces_S8x256x512_S8x512 (.inl rfl) rfl (ix2 b f)).trans ?_
  refine (Finset.sum_congr rfl fun p _ => ?_).trans (Spec.cmpSum_apply x0 x1 x2 b f).symm
  -- the summand: the entry (b, p, f), which is row 256·b + p of tanh of the product
  refine (congrArg _ (lift_eq b f p)).trans ?_
  refine (cast_back_apply _ b p f).trans ?_
  refine congrArg Ideal.tanh ?_
  refine (mm_apply _ _ (row b p) f).trans ?_
  refine Finset.sum_congr rfl fun c _ => ?_
  -- the left operand's entry is the joined arrays' (b, p, c); the casts to the same shape change nothing
  refine congrArg₂ (· * ·) ?_ ?_
  · refine (cast_rows_apply _ b p c).trans ?_
    rw [shapeCast_self, shapeCast_self]
    exact congrFun (LibCat.concatenate_last3 x0 x1 concatenates_S8x256x512_S8x256x512_S8x256x1024_d2) (ix3 b p c)
  · rw [shapeCast_self]

theorem pay1_eq' (x0 x1 : Vec Ideal S8x256x512 .bf16) (x2 : Vec Ideal S1024x512 .bf16) :
    k2_pay1 (F := Ideal) x0 x1 x2 = Spec.cmpSum (B := 8) (L := 256) (E1 := 512) (E2 := 512) (K := 1024) (FF := 512) x0 x1 x2 :=
  pay1_eq x0 x1 x2

end Cert.KCompare

end
-- ==== Proof.Final1.lean ====
/-
  The first compare region's result array after the region has run, as one whole-array function of the arrays the region
  finds: grid point (i, j) handles the sentence pairs 8i … 8i+7 and the output features 512j … 512j+511, which need
  only those pairs' tokens and those columns of the weight. Its weight array ends as it was.

  The steps: the four windows' block indices related to each other over the 64 grid points; each input block as a
  sub-batch of pairs (or a block of weight columns) of its array; what a point writes back as the block of the whole
  result that its block index names (the compare-and-add of a sub-batch and a column block is that block of the
  compare-and-add of the whole arrays, `Spec.cmpSum_block`); every entry of the result lies in some point's block.
-/
import proofs.«113778_j36386962932383_1_alg».proof.Proof.Gen.KernelIdeal.Frame
import Idealize.ShloMosaic.Lib.Pipeline.Value
import proofs.«113778_j36386962932383_1_alg».proof.Proof.Spec
import proofs.«113778_j36386962932383_1_alg».proof.Proof.KCompare

set_option maxRecDepth 16384

noncomputable section

namespace Cert.Final1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block indices over the grid -/

/-- The offsets of a rectangle that starts at the origin, rank 2 and rank 3. -/
theorem origin2 : (![0, 0] : Fin 2 → Nat) = fun _ => 0 := funext fun a => by fin_cases a <;> rfl
theorem origin3 : (![0, 0, 0] : Fin 3 → Nat) = fun _ => 0 := funext fun a => by fin_cases a <;> rfl

/-- The four index maps over the 64 grid points: both token arrays move with the result's row block and stay at the
    origin along tokens and features; the weight stays at the origin along its rows and moves with the result's
    column block; the result's row block is one of 16, its column block one of 4. -/
theorem block_indices : ∀ t : Fin cfg1.N,
      win1_0.index t (0 : Fin 3) = win1_3.index t (0 : Fin 2)
    ∧ win1_0.index t (1 : Fin 3) = 0
    ∧ win1_0.index t (2 : Fin 3) = 0
    ∧ win1_1.index t (0 : Fin 3) = win1_3.index t (0 : Fin 2)
    ∧ win1_1.index t (1 : Fin 3) = 0
    ∧ win1_1.index t (2 : Fin 3) = 0
    ∧ win1_2.index t (0 : Fin 2) = 0
    ∧ win1_2.index t (1 : Fin 2) = win1_3.index t (1 : Fin 2)
    ∧ win1_3.index t (0 : Fin 2) ≤ 15
    ∧ win1_3.index t (1 : Fin 2) ≤ 3 :=
  (by decide +kernel : ∀ t : Fin grid1.N, _)

/-- Every one of the 16 × 4 blocks of the result is some point's. -/
theorem every_block_reached : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

/-! ## The input blocks as sub-batches and column blocks -/

/-- The premises' block at a point whose row block is `i`: the sub-batch of the pairs 8i … 8i+7. A block's coordinate
    along an axis is the block index times the block's extent plus the coordinate inside the block. -/
theorem tokens_block (c : Dev nD) (t : Fin cfg1.N) (i : Nat) (hi : i ≤ 15)
    (e0 : win1_0.index t (0 : Fin 3) = i) (e1 : win1_0.index t (1 : Fin 3) = 0) (e2 : win1_0.index t (2 : Fin 3) = 0) :
    (iblk1 V c 0 t : Vec Ideal S8x256x512 .bf16)
      = Spec.rows3 (B' := 8) (B := 128) (L := 256) (E := 512) (fun b => ⟨8 * i + b.val, by omega⟩) (V c main_v0) := by
  funext y
  unfold iblk1
  rw [View.read_apply]
  show V c main_v0 _ = V c main_v0 _
  congr 1
  funext a
  apply Fin.ext
  match a with
  | ⟨0, _⟩ => show win1_0.index t (0 : Fin 3) * 8 + 1 * (y 0).val = 8 * i + (y 0).val; omega
  | ⟨1, _⟩ => show win1_0.index t (1 : Fin 3) * 256 + 1 * (y 1).val = (y 1).val; omega
  | ⟨2, _⟩ => show win1_0.index t (2 : Fin 3) * 512 + 1 * (y 2).val = (y 2).val; omega

/-- The aligned vectors' block at a point whose row block is `i`: the sub-batch of the pairs 8i … 8i+7. -/
theorem aligned_block (c : Dev nD) (t : Fin cfg1.N) (i : Nat) (hi : i ≤ 15)
    (e0 : win1_1.index t (0 : Fin 3) = i) (e1 : win1_1.index t (1 : Fin 3) = 0) (e2 : win1_1.index t (2 : Fin 3) = 0) :
    (iblk1 V c 1 t : Vec Ideal S8x256x512 .bf16)
      = Spec.rows3 (B' := 8) (B := 128) (L := 256) (E := 512) (fun b => ⟨8 * i + b.val, by omega⟩) (V c main_v4_0) := by
  funext y
  unfold iblk1
  rw [View.read_apply]
  show V c main_v4_0 _ = V c main_v4_0 _
  congr 1
  funext a
  apply Fin.ext
  match a with
  | ⟨0, _⟩ => show win1_1.index t (0 : Fin 3) * 8 + 1 * (y 0).val = 8 * i + (y 0).val; omega
  | ⟨1, _⟩ => show win1_1.index t (1 : Fin 3) * 256 + 1 * (y 1).val = (y 1).val; omega
  | ⟨2, _⟩ => show win1_1.index t (2 : Fin 3) * 512 + 1 * (y 2).val = (y 2).val; omega

/-- The weight's block at a point whose column block is `j`: all 1024 rows, the columns 512j … 512j+511. -/
theorem weight_block (c : Dev nD) (t : Fin cfg1.N) (j : Nat) (hj : j ≤ 3)
    (e0 : win1_2.index t (0 : Fin 2) = 0) (e1 : win1_2.index t (1 : Fin 2) = j) :
    (iblk1 V c 2 t : Vec Ideal S1024x512 .bf16)
      = Spec.cols2 (FF' := 512) (FF := 2048) (K := 1024) (fun f => ⟨512 * j + f.val, by omega⟩) (V c main_v3) := by
  funext y
  unfold iblk1
  rw [View.read_apply]
  show V c main_v3 _ = V c main_v3 _
  congr 1
  funext a
  apply Fin.ext
  match a with
  | ⟨0, _⟩ => show win1_2.index t (0 : Fin 2) * 1024 + 1 * (y 0).val = (y 0).val; omega
  | ⟨1, _⟩ => show win1_2.index t (1 : Fin 2) * 512 + 1 * (y 1).val = 512 * j + (y 1).val; omega

/-! ## What a point writes back -/

/-- The whole result: the compare-and-add of the arrays the region finds. -/
abbrev compared (c : Dev nD) : S128x2048.Idx → Elt Ideal .f32 :=
  Spec.cmpSum (B := 128) (L := 256) (E1 := 512) (E2 := 512) (K := 1024) (FF := 2048) (V c main_v0) (V c main_v4_0) (V c main_v3)

/-- Point `t` writes back the block of the whole result that its block index names: its stored value is the
    compare-and-add of its three blocks, those are a sub-batch of pairs and a block of weight columns, and the
    compare-and-add of these is the same rows and columns of the compare-and-add of the whole arrays. -/
theorem point_writes_block (c : Dev nD) (t : Fin cfg1.N) :
    (dat1 (F := Ideal) V c).flushed 3 t = ((cfg1.win 3).blk t).view.read (Elt Ideal) (compared V c) := by
  show (cfg1.win 3).cut (grid1.coords t) ((dat1 V c).after 3 t) = _
  rw [after1_3]
  unfold out1_3
  rw [View.canon_unit_zero origin2]
  simp only [View.ld_unit_zero (S := S8x256x512) origin3, View.ld_unit_zero (S := S1024x512) origin2]
  rw [KCompare.pay1_eq]
  obtain ⟨p0, p1, p2, a0, a1, a2, w0, w1, hi, hj⟩ := block_indices t
  rw [tokens_block V c t (win1_3.index t (0 : Fin 2)) hi p0 p1 p2,
    aligned_block V c t (win1_3.index t (0 : Fin 2)) hi a0 a1 a2,
    weight_block V c t (win1_3.index t (1 : Fin 2)) hj w0 w1, Spec.cmpSum_block]
  funext y
  show compared V c _ = compared V c (((cfg1.win 3).blk t).view.emb y)
  congr 1
  funext a
  apply Fin.ext
  match a with
  | ⟨0, _⟩ => show 8 * win1_3.index t (0 : Fin 2) + (y 0).val = win1_3.index t (0 : Fin 2) * 8 + 1 * (y 0).val; omega
  | ⟨1, _⟩ => show 512 * win1_3.index t (1 : Fin 2) + (y 1).val = win1_3.index t (1 : Fin 2) * 512 + 1 * (y 1).val; omega

/-! ## The blocks cover the result -/

/-- An entry of the result is in point `t`'s block iff each coordinate is in the block's range on its axis. -/
theorem mem_result_block (t : Fin cfg1.N) (i : S128x2048.Idx) :
    i ∈ ((cfg1.win 3).blk t).view.set ↔ ∀ a : Fin 2, win1_3.index t a * S8x512.size a ≤ (i a).val ∧ (i a).val < win1_3.index t a * S8x512.size a + S8x512.size a := by
  show i ∈ ((View.whole main_v5).slice (win1_3.rect t)).set ↔ _
  rw [View.set_slice_whole, Rect.mem_set_unit]
  exact Iff.rfl

/-- Entry (b, f) of the result is in the block of the point whose block index is (b / 8, f / 512). -/
theorem result_covered (i : S128x2048.Idx) :
    ∃ t : Fin cfg1.N, (cfg1.win 3).flush t = true ∧ i ∈ ((cfg1.win 3).blk t).view.set := by
  have hi0 : (i 0).val < 128 := (i 0).isLt
  have hi1 : (i 1).val < 2048 := (i 1).isLt
  obtain ⟨t, ht⟩ := every_block_reached ⟨(i 0).val / 8, by omega⟩ ⟨(i 1).val / 512, by omega⟩
  have q0 : win1_3.index t (0 : Fin 2) = (i 0).val / 8 := congrFun ht 0
  have q1 : win1_3.index t (1 : Fin 2) = (i 1).val / 512 := congrFun ht 1
  refine ⟨t, flush1_3 t, ?_⟩
  rw [mem_result_block]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 512 ≤ (i 1).val ∧ (i 1).val < win1_3.index t (1 : Fin 2) * 512 + 512; omega

/-! ## The arrays after the region -/

theorem final1_3 (c : Dev nD) :
    (dat1 (F := Ideal) V c).arrAt 3 cfg1.N
      = Spec.cmpSum (B := 128) (L := 256) (E1 := 512) (E2 := 512) (K := 1024) (FF := 2048) (V c main_v0) (V c main_v4_0) (V c main_v3) :=
  (dat1 (F := Ideal) V c).arrAt_eq_of_cover 3 (compared V c) (fun t _ => point_writes_block V c t) result_covered

/-- The weight array (input window 2) is not written. -/
theorem kept1_2 (c : Dev nD) : (dat1 (F := Ideal) V c).arrAt 2 cfg1.N = V c main_v3 := by
  funext i
  rw [(dat1 (F := Ideal) V c).arrAt_apply_of_forall_not_mem 2 cfg1.N i
    (fun t _ hf => (Bool.false_ne_true ((rfl : (cfg1.win 2).flush t = false).symm.trans hf)).elim), A_eq1]

end Cert.Final1

end
-- ==== Proof.Final2.lean ====
/-
  The second compare region's result array after the region has run, as one whole-array function of the arrays the
  region finds (the hypotheses against their soft-aligned premises): as for the first compare region.

  The steps: the four windows' block indices related to each other over the 64 grid points; each input block as a
  sub-batch of pairs (or a block of weight columns) of its array; what a point writes back as the block of the whole
  result that its block index names (`Spec.cmpSum_block`); every entry of the result lies in some point's block.
-/
import proofs.«113778_j36386962932383_1_alg».proof.Proof.Gen.KernelIdeal.Frame
import Idealize.ShloMosaic.Lib.Pipeline.Value
import proofs.«113778_j36386962932383_1_alg».proof.Proof.Spec
import proofs.«113778_j36386962932383_1_alg».proof.Proof.KCompare

set_option maxRecDepth 16384

noncomputable section

namespace Cert.Final2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block indices over the grid -/

/-- The offsets of a rectangle that starts at the origin, rank 2 and rank 3. -/
theorem origin2 : (![0, 0] : Fin 2 → Nat) = fun _ => 0 := funext fun a => by fin_cases a <;> rfl
theorem origin3 : (![0, 0, 0] : Fin 3 → Nat) = fun _ => 0 := funext fun a => by fin_cases a <;> rfl

/-- The four index maps over the 64 grid points: both token arrays move with the result's row block and stay at the
    origin along tokens and features; the weight stays at the origin along its rows and moves with the result's
    column block; the result's row block is one of 16, its column block one of 4. -/
theorem block_indices : ∀ t : Fin cfg2.N,
      win2_0.index t (0 : Fin 3) = win2_3.index t (0 : Fin 2)
    ∧ win2_0.index t (1 : Fin 3) = 0
    ∧ win2_0.index t (2 : Fin 3) = 0
    ∧ win2_1.index t (0 : Fin 3) = win2_3.index t (0 : Fin 2)
    ∧ win2_1.index t (1 : Fin 3) = 0
    ∧ win2_1.index t (2 : Fin 3) = 0
    ∧ win2_2.index t (0 : Fin 2) = 0
    ∧ win2_2.index t (1 : Fin 2) = win2_3.index t (1 : Fin 2)
    ∧ win2_3.index t (0 : Fin 2) ≤ 15
    ∧ win2_3.index t (1 : Fin 2) ≤ 3 :=
  (by decide +kernel : ∀ t : Fin grid2.N, _)

/-- Every one of the 16 × 4 blocks of the result is some point's. -/
theorem every_block_reached : ∀ (q0 : Fin 16) (q1 : Fin 4), ∃ t : Fin cfg2.N, win2_3.index t = ![q0.val, q1.val] :=
  (by decide +kernel : ∀ (q0 : Fin 16) (q1 : Fin 4), ∃ t : Fin grid2.N, win2_3.index t = ![q0.val, q1.val])

/-! ## The input blocks as sub-batches and column blocks -/

/-- The hypotheses' block at a point whose row block is `i`: the sub-batch of the pairs 8i … 8i+7. A block's
    coordinate along an axis is the block index times the block's extent plus the coordinate inside the block. -/
theorem tokens_block (c : Dev nD) (t : Fin cfg2.N) (i : Nat) (hi : i ≤ 15)
    (e0 : win2_0.index t (0 : Fin 3) = i) (e1 : win2_0.index t (1 : Fin 3) = 0) (e2 : win2_0.index t (2 : Fin 3) = 0) :
    (iblk2 V c 0 t : Vec Ideal S8x256x512 .bf16)
      = Spec.rows3 (B' := 8) (B := 128) (L := 256) (E := 512) (fun b => ⟨8 * i + b.val, by omega⟩) (V c main_v1) := by
  funext y
  unfold iblk2
  rw [View.read_apply]
  show V c main_v1 _ = V c main_v1 _
  congr 1
  funext a
  apply Fin.ext
  match a with
  | ⟨0, _⟩ => show win2_0.index t (0 : Fin 3) * 8 + 1 * (y 0).val = 8 * i + (y 0).val; omega
  | ⟨1, _⟩ => show win2_0.index t (1 : Fin 3) * 256 + 1 * (y 1).val = (y 1).val; omega
  | ⟨2, _⟩ => show win2_0.index t (2 : Fin 3) * 512 + 1 * (y 2).val = (y 2).val; omega

/-- The aligned vectors' block at a point whose row block is `i`: the sub-batch of the pairs 8i … 8i+7. -/
theorem aligned_block (c : Dev nD) (t : Fin cfg2.N) (i : Nat) (hi : i ≤ 15)
    (e0 : win2_1.index t (0 : Fin 3) = i) (e1 : win2_1.index t (1 : Fin 3) = 0) (e2 : win2_1.index t (2 : Fin 3) = 0) :
    (iblk2 V c 1 t : Vec Ideal S8x256x512 .bf16)
      = Spec.rows3 (B' := 8) (B := 128) (L := 256) (E := 512) (fun b => ⟨8 * i + b.val, by omega⟩) (V c main_v4_1) := by
  funext y
  unfold iblk2
  rw [View.read_apply]
  show V c main_v4_1 _ = V c main_v4_1 _
  congr 1
  funext a
  apply Fin.ext
  match a with
  | ⟨0, _⟩ => show win2_1.index t (0 : Fin 3) * 8 + 1 * (y 0).val = 8 * i + (y 0).val; omega
  | ⟨1, _⟩ => show win2_1.index t (1 : Fin 3) * 256 + 1 * (y 1).val = (y 1).val; omega
  | ⟨2, _⟩ => show win2_1.index t (2 : Fin 3) * 512 + 1 * (y 2).val = (y 2).val; omega

/-- The weight's block at a point whose column block is `j`: all 1024 rows, the columns 512j … 512j+511. -/
theorem weight_block (c : Dev nD) (t : Fin cfg2.N) (j : Nat) (hj : j ≤ 3)
    (e0 : win2_2.index t (0 : Fin 2) = 0) (e1 : win2_2.index t (1 : Fin 2) = j) :
    (iblk2 V c 2 t : Vec Ideal S1024x512 .bf16)
      = Spec.cols2 (FF' := 512) (FF := 2048) (K := 1024) (fun f => ⟨512 * j + f.val, by omega⟩) (V c main_v3) := by
  funext y
  unfold iblk2
  rw [View.read_apply]
  show V c main_v3 _ = V c main_v3 _
  congr 1
  funext a
  apply Fin.ext
  match a with
  | ⟨0, _⟩ => show win2_2.index t (0 : Fin 2) * 1024 + 1 * (y 0).val = (y 0).val; omega
  | ⟨1, _⟩ => show win2_2.index t (1 : Fin 2) * 512 + 1 * (y 1).val = 512 * j + (y 1).val; omega

/-! ## What a point writes back -/

/-- The whole result: the compare-and-add of the arrays the region finds. -/
abbrev compared (c : Dev nD) : S128x2048.Idx → Elt Ideal .f32 :=
  Spec.cmpSum (B := 128) (L := 256) (E1 := 512) (E2 := 512) (K := 1024) (FF := 2048) (V c main_v1) (V c main_v4_1) (V c main_v3)

/-- Point `t` writes back the block of the whole result that its block index names: its stored value is the
    compare-and-add of its three blocks, those are a sub-batch of pairs and a block of weight columns, and the
    compare-and-add of these is the same rows and columns of the compare-and-add of the whole arrays. -/
theorem point_writes_block (c : Dev nD) (t : Fin cfg2.N) :
    (dat2 (F := Ideal) V c).flushed 3 t = ((cfg2.win 3).blk t).view.read (Elt Ideal) (compared V c) := by
  show (cfg2.win 3).cut (grid2.coords t) ((dat2 V c).after 3 t) = _
  rw [after2_3]
  unfold out2_3
  rw [View.canon_unit_zero origin2]
  simp only [View.ld_unit_zero (S := S8x256x512) origin3, View.ld_unit_zero (S := S1024x512) origin2]
  rw [KCompare.pay1_eq']
  obtain ⟨p0, p1, p2, a0, a1, a2, w0, w1, hi, hj⟩ := block_indices t
  rw [tokens_block V c t (win2_3.index t (0 : Fin 2)) hi p0 p1 p2,
    aligned_block V c t (win2_3.index t (0 : Fin 2)) hi a0 a1 a2,
    weight_block V c t (win2_3.index t (1 : Fin 2)) hj w0 w1, Spec.cmpSum_block]
  funext y
  show compared V c _ = compared V c (((cfg2.win 3).blk t).view.emb y)
  congr 1
  funext a
  apply Fin.ext
  match a with
  | ⟨0, _⟩ => show 8 * win2_3.index t (0 : Fin 2) + (y 0).val = win2_3.index t (0 : Fin 2) * 8 + 1 * (y 0).val; omega
  | ⟨1, _⟩ => show 512 * win2_3.index t (1 : Fin 2) + (y 1).val = win2_3.index t (1 : Fin 2) * 512 + 1 * (y 1).val; omega

/-! ## The blocks cover the result -/

/-- An entry of the result is in point `t`'s block iff each coordinate is in the block's range on its axis. -/
theorem mem_result_block (t : Fin cfg2.N) (i : S128x2048.Idx) :
    i ∈ ((cfg2.win 3).blk t).view.set ↔ ∀ a : Fin 2, win2_3.index t a * S8x512.size a ≤ (i a).val ∧ (i a).val < win2_3.index t a * S8x512.size a + S8x512.size a := by
  show i ∈ ((View.whole main_v6).slice (win2_3.rect t)).set ↔ _
  rw [View.set_slice_whole, Rect.mem_set_unit]
  exact Iff.rfl

/-- Entry (b, f) of the result is in the block of the point whose block index is (b / 8, f / 512). -/
theorem result_covered (i : S128x2048.Idx) :
    ∃ t : Fin cfg2.N, (cfg2.win 3).flush t = true ∧ i ∈ ((cfg2.win 3).blk t).view.set := by
  have hi0 : (i 0).val < 128 := (i 0).isLt
  have hi1 : (i 1).val < 2048 := (i 1).isLt
  obtain ⟨t, ht⟩ := every_block_reached ⟨(i 0).val / 8, by omega⟩ ⟨(i 1).val / 512, by omega⟩
  have q0 : win2_3.index t (0 : Fin 2) = (i 0).val / 8 := congrFun ht 0
  have q1 : win2_3.index t (1 : Fin 2) = (i 1).val / 512 := congrFun ht 1
  refine ⟨t, flush2_3 t, ?_⟩
  rw [mem_result_block]
  intro a
  match a with
  | ⟨0, _⟩ => show win2_3.index t (0 : Fin 2) * 8 ≤ (i 0).val ∧ (i 0).val < win2_3.index t (0 : Fin 2) * 8 + 8; omega
  | ⟨1, _⟩ => show win2_3.index t (1 : Fin 2) * 512 ≤ (i 1).val ∧ (i 1).val < win2_3.index t (1 : Fin 2) * 512 + 512; omega

/-! ## The array after the region -/

theorem final2_3 (c : Dev nD) :
    (dat2 (F := Ideal) V c).arrAt 3 cfg2.N
      = Spec.cmpSum (B := 128) (L := 256) (E1 := 512) (E2 := 512) (K := 1024) (FF := 2048) (V c main_v1) (V c main_v4_1) (V c main_v3) :=
  (dat2 (F := Ideal) V c).arrAt_eq_of_cover 3 (compared V c) (fun t _ => point_writes_block V c t) result_covered

end Cert.Final2

end
-- ==== Proof.KHead.lean ====
/-
  The classifier kernel's stored value, as a function of the blocks it loads: the three layers applied to a block of 32
  rows, the biases held as one-row matrices.
-/
import proofs.«113778_j36386962932383_1_alg».proof.Proof.Gen.KernelIdeal.Skeleton
import proofs.«113778_j36386962932383_1_alg».proof.Proof.Spec
import proofs.«113778_j36386962932383_1_alg».proof.Proof.LibPlainMatmul
import Idealize.ShloMosaic.Lib.ValueLayout
import Idealize.ShloMosaic.Lib.Pipeline.Value

noncomputable section

namespace Cert.KHead

open Cert.KernelIdeal Cert.KernelIdeal.Gen Idealize.ShloMosaic Idealize.ShloMosaic.ValueIdx
open Idealize.ShloMosaic.LibPlainMatmul

/-- A one-row matrix read as a vector. -/
def row {N : ℕ} (b : (⟨2, ![1, N]⟩ : Shape).Idx → EReal) : Fin N → EReal := fun q => b (ix2 (0 : Fin 1) q)

/-! ## The three products are plain: left columns contracted with right rows, no batch axis -/

theorem dot1_plain : dot_S32x4096_S4096x2048_S32x2048_1_0_0_1_n_n = DotDims.plain 32 4096 2048 := rfl
theorem dot2_plain : dot_S32x2048_S2048x2048_S32x2048_1_0_0_1_n_n = DotDims.plain 32 2048 2048 := rfl
theorem dot3_plain : dot_S32x2048_S2048x3_S32x3_1_0_0_1_n_n = DotDims.plain 32 2048 3 := rfl

/-! ## One layer -/

/-- One layer as written with a product into the zero splat: at (r, q) the product is Σ_k A(r, k) · W(k, q), and the
    one-row bias broadcast down the rows reads b(0, q); their sum is (A · W + b)(r, q). -/
theorem layer_kernel {m k n : ℕ} {φ₁ φ₂ : FTy} (A : FVec Ideal ⟨2, ![m, k]⟩ φ₁) (W : FVec Ideal ⟨2, ![k, n]⟩ φ₂)
    (b : FVec Ideal ⟨2, ![1, n]⟩ .f32) (h : (⟨2, ![1, n]⟩ : Shape).Broadcasts ⟨2, ![m, n]⟩) :
    addf (matmul (DotDims.plain m k n) none A W (constant (⟨2, ![m, n]⟩ : Shape) .f32 0x00000000#32))
        (broadcastTo ⟨2, ![m, n]⟩ b h)
      = Spec.layer (M := m) (K := k) (N := n) A W (row b) := by
  funext i
  obtain ⟨r, q, rfl⟩ : ∃ r q, i = ix2 r q := ⟨i 0, i 1, eq_ix2 i⟩
  rw [addf_apply, matmul_plain_zero_apply, broadcastTo_1b_ab_apply, Spec.layer_apply]
  rfl

/-- tanh entry by entry, then the narrowing of the format, which is the identity on extended reals. -/
theorem tanh_kernel {m n : ℕ} (X : FVec Ideal ⟨2, ![m, n]⟩ .f32) (h : FTy.bf16.bits < FTy.f32.bits) :
    (truncf .bf16 (tanh X) h : FVec Ideal ⟨2, ![m, n]⟩ .bf16) = Spec.tanhM (M := m) (N := n) X := rfl

/-! ## The stored value -/

/-- The stored block is the classifier of the 32 loaded rows: the casts to the same shape are the identity, each product
    is plain, and the three layers are read one after the other by `layer_kernel` and `tanh_kernel`. -/
theorem pay1_eq (v0 : Vec Ideal S32x4096 .bf16) (v2 : Vec Ideal S4096x2048 .bf16) (v4 : Vec Ideal S1x2048 .f32)
    (v11 : Vec Ideal S2048x2048 .bf16) (v13 : Vec Ideal S1x2048 .f32) (v20 : Vec Ideal S2048x3 .bf16) (v22 : Vec Ideal S1x3 .f32) :
    k3_pay1 (F := Ideal) v0 v2 v4 v11 v13 v20 v22
      = Spec.head (M := 32) (K := 4096) (N1 := 2048) (N2 := 2048) (N3 := 3) v0 v2 (row v4) v11 (row v13) v20 (row v22) := by
  unfold k3_pay1
  simp only [shapeCast_self, dot1_plain, dot2_plain, dot3_plain]
  simp only [layer_kernel, tanh_kernel]
  rfl

end Cert.KHead

end
-- ==== Proof.Final3.lean ====
/-
  The classifier region's result array after the region has run, as one whole-array function of the arrays the region
  finds: grid point t handles rows 32t … 32t+31, and the layers treat rows independently.
-/
import proofs.«113778_j36386962932383_1_alg».proof.Proof.Gen.KernelIdeal.Frame
import Idealize.ShloMosaic.Lib.Pipeline.Value
import proofs.«113778_j36386962932383_1_alg».proof.Proof.Spec
import proofs.«113778_j36386962932383_1_alg».proof.Proof.KHead

set_option maxRecDepth 16384

noncomputable section

namespace Cert.Final3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The classifier of the whole arrays the region finds: what the result array ends holding. -/
abbrev G (c : Dev nD) : Spec.M2 128 3 :=
  Spec.head (M := 128) (K := 4096) (N1 := 2048) (N2 := 2048) (N3 := 3) (V c main_v8) (V c main_v9) (KHead.row (V c main_v12))
          (V c main_v10) (KHead.row (V c main_v13)) (V c main_v11) (KHead.row (V c main_v14))

/-! ## The index maps over the four grid points -/

/-- The index maps, decided over the grid: the activations' window and the result's window sit at block (t, 0) at point t,
    the weights' and biases' windows at block (0, 0) at every point; and there are four points. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 ∧ t.val < 4 :=
  (by decide +kernel : ∀ t : Fin grid3.N, _)

theorem t_lt : ∀ t : Fin cfg3.N, t.val < 4 := (by decide +kernel : ∀ t : Fin grid3.N, t.val < 4)

/-- Every one of the four row blocks is some point's. -/
theorem idx_onto : ∀ q : Fin 4, ∃ t : Fin cfg3.N, t.val = q.val :=
  (by decide +kernel : ∀ q : Fin 4, ∃ t : Fin grid3.N, t.val = q.val)

/-- Row r of point t's block is row 32 t + r of the array. -/
def rowOf (t : Fin cfg3.N) : Fin 32 → Fin 128 := fun r => ⟨32 * t.val + r.val, by have := t_lt t; have := r.isLt; omega⟩

/-! ## The blocks the body loads, read off the arrays -/

/-- Window 0 at point t is rows 32 t … 32 t + 31 of the activations: its block index is (t, 0), so the block's entry
    (r, k) is the array's entry (32 t + r, k). -/
theorem blk0 (c : Dev nD) (t : Fin cfg3.N) :
    (iblk3 V c 0 t : Vec Ideal S32x4096 .bf16) = Spec.rows2 (rowOf t) (V c main_v8) := by
  obtain ⟨a00, a01, a10, a11, a20, a21, a30, a31, a40, a41, a50, a51, a60, a61, a70, a71, ht⟩ := idx_facts t
  funext y
  show V c main_v8 (((cfg3.win 0).blk t).view.emb y) = V c main_v8 (ix2 (rowOf t (y 0)) (y 1))
  refine congrArg _ ?_
  funext a; apply Fin.ext
  match a with
  | ⟨0, _⟩ => show win3_0.index t (0 : Fin 2) * 32 + 1 * (y 0).val = 32 * t.val + (y 0).val; omega
  | ⟨1, _⟩ => show win3_0.index t (1 : Fin 2) * 4096 + 1 * (y 1).val = (y 1).val; omega

/-- Window 1 is the first layer's weights, whole at every point: its block index is (0, 0). -/
theorem blk1 (c : Dev nD) (t : Fin cfg3.N) : (iblk3 V c 1 t : Vec Ideal S4096x2048 .bf16) = V c main_v9 := by
  obtain ⟨a00, a01, a10, a11, a20, a21, a30, a31, a40, a41, a50, a51, a60, a61, a70, a71, ht⟩ := idx_facts t
  funext y
  show V c main_v9 (((cfg3.win 1).blk t).view.emb y) = V c main_v9 y
  refine congrArg _ ?_
  funext a; apply Fin.ext
  match a with
  | ⟨0, _⟩ => show win3_1.index t (0 : Fin 2) * 4096 + 1 * (y 0).val = (y 0).val; omega
  | ⟨1, _⟩ => show win3_1.index t (1 : Fin 2) * 2048 + 1 * (y 1).val = (y 1).val; omega

/-- Window 2 is the first layer's bias row, whole at every point: its block index is (0, 0). -/
theorem blk2 (c : Dev nD) (t : Fin cfg3.N) : (iblk3 V c 2 t : Vec Ideal S1x2048 .f32) = V c main_v12 := by
  obtain ⟨a00, a01, a10, a11, a20, a21, a30, a31, a40, a41, a50, a51, a60, a61, a70, a71, ht⟩ := idx_facts t
  funext y
  show V c main_v12 (((cfg3.win 2).blk t).view.emb y) = V c main_v12 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 2048 + 1 * (y 1).val = (y 1).val; omega

/-- Window 3 is the second layer's weights, whole at every point: its block index is (0, 0). -/
theorem blk3 (c : Dev nD) (t : Fin cfg3.N) : (iblk3 V c 3 t : Vec Ideal S2048x2048 .bf16) = V c main_v10 := by
  obtain ⟨a00, a01, a10, a11, a20, a21, a30, a31, a40, a41, a50, a51, a60, a61, a70, a71, ht⟩ := idx_facts t
  funext y
  show V c main_v10 (((cfg3.win 3).blk t).view.emb y) = V c main_v10 y
  refine congrArg _ ?_
  funext a; apply Fin.ext
  match a with
  | ⟨0, _⟩ => show win3_3.index t (0 : Fin 2) * 2048 + 1 * (y 0).val = (y 0).val; omega
  | ⟨1, _⟩ => show win3_3.index t (1 : Fin 2) * 2048 + 1 * (y 1).val = (y 1).val; omega

/-- Window 4 is the second layer's bias row, whole at every point: its block index is (0, 0). -/
theorem blk4 (c : Dev nD) (t : Fin cfg3.N) : (iblk3 V c 4 t : Vec Ideal S1x2048 .f32) = V c main_v13 := by
  obtain ⟨a00, a01, a10, a11, a20, a21, a30, a31, a40, a41, a50, a51, a60, a61, a70, a71, ht⟩ := idx_facts t
  funext y
  show V c main_v13 (((cfg3.win 4).blk t).view.emb y) = V c main_v13 y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 2048 + 1 * (y 1).val = (y 1).val; omega

/-- Window 5 is the third layer's weights, whole at every point: its block index is (0, 0). -/
theorem blk5 (c : Dev nD) (t : Fin cfg3.N) : (iblk3 V c 5 t : Vec Ideal S2048x3 .bf16) = V c main_v11 := by
  obtain ⟨a00, a01, a10, a11, a20, a21, a30, a31, a40, a41, a50, a51, a60, a61, a70, a71, ht⟩ := idx_facts t
  funext y
  show V c main_v11 (((cfg3.win 5).blk t).view.emb y) = V c main_v11 y
  refine congrArg _ ?_
  funext a; apply Fin.ext
  match a with
  | ⟨0, _⟩ => show win3_5.index t (0 : Fin 2) * 2048 + 1 * (y 0).val = (y 0).val; omega
  | ⟨1, _⟩ => show win3_5.index t (1 : Fin 2) * 3 + 1 * (y 1).val = (y 1).val; omega

/-- Window 6 is the third layer's bias row, whole at every point: its block index is (0, 0). -/
theorem blk6 (c : Dev nD) (t : Fin cfg3.N) : (iblk3 V c 6 t : Vec Ideal S1x3 .f32) = V c main_v14 := by
  obtain ⟨a00, a01, a10, a11, a20, a21, a30, a31, a40, a41, a50, a51, a60, a61, a70, a71, ht⟩ := idx_facts t
  funext y
  show V c main_v14 (((cfg3.win 6).blk t).view.emb y) = V c main_v14 y
  refine congrArg _ ?_
  funext a; apply Fin.ext
  match a with
  | ⟨0, _⟩ => show win3_6.index t (0 : Fin 2) * 1 + 1 * (y 0).val = (y 0).val; omega
  | ⟨1, _⟩ => show win3_6.index t (1 : Fin 2) * 3 + 1 * (y 1).val = (y 1).val; omega

/-! ## What a point writes back -/

/-- WHAT POINT t WRITES BACK is block t of the classifier of the whole arrays: the body stores the classifier of the blocks
    it loads (`KHead.pay1_eq`), the loaded activations are rows 32 t … of the array and the weights and biases are whole
    (`blk0` … `blk6`), the classifier of some rows is those rows of the classifier (`Spec.head_rows`), and the result's
    block (t, 0) reads the same rows back. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S32x4096) hz, View.ld_unit_zero (S := S4096x2048) hz, View.ld_unit_zero (S := S1x2048) hz,
    View.ld_unit_zero (S := S2048x2048) hz, View.ld_unit_zero (S := S2048x3) hz, View.ld_unit_zero (S := S1x3) hz]
  rw [KHead.pay1_eq]
  rw [blk0 V c t, blk1 V c t, blk2 V c t, blk3 V c t, blk4 V c t, blk5 V c t, blk6 V c t, Spec.head_rows]
  obtain ⟨a00, a01, a10, a11, a20, a21, a30, a31, a40, a41, a50, a51, a60, a61, a70, a71, ht⟩ := idx_facts t
  funext j
  show G V c (ix2 (rowOf t (j 0)) (j 1)) = G V c (((cfg3.win 7).blk t).view.emb j)
  refine congrArg _ ?_
  funext a; apply Fin.ext
  match a with
  | ⟨0, _⟩ => show 32 * t.val + (j 0).val = win3_7.index t (0 : Fin 2) * 32 + 1 * (j 0).val; omega
  | ⟨1, _⟩ => show (j 1).val = win3_7.index t (1 : Fin 2) * 3 + 1 * (j 1).val; omega

/-! ## The blocks tile the result array -/

/-- An index of the array is in point t's block iff each coordinate is in the block's range on its axis. -/
theorem mem_blk (t : Fin cfg3.N) (i : S128x3.Idx) :
    i ∈ ((cfg3.win 7).blk t).view.set ↔ ∀ a : Fin 2, win3_7.index t a * S32x3.size a ≤ (i a).val ∧ (i a).val < win3_7.index t a * S32x3.size a + S32x3.size a := by
  show i ∈ ((View.whole main_v15).slice (win3_7.rect t)).set ↔ _
  rw [View.set_slice_whole, Rect.mem_set_unit]
  exact Iff.rfl

/-- Row r of the result is in the block of point r / 32, and every point writes its block back. -/
theorem cover (i : S128x3.Idx) : ∃ t : Fin cfg3.N, (cfg3.win 7).flush t = true ∧ i ∈ ((cfg3.win 7).blk t).view.set := by
  have hi0 : (i 0).val < 128 := (i 0).isLt
  have hi1 : (i 1).val < 3 := (i 1).isLt
  obtain ⟨t, ht'⟩ := idx_onto ⟨(i 0).val / 32, by omega⟩
  have htq : t.val = (i 0).val / 32 := ht'
  obtain ⟨a00, a01, a10, a11, a20, a21, a30, a31, a40, a41, a50, a51, a60, a61, a70, a71, ht⟩ := idx_facts t
  refine ⟨t, flush3_7 t, ?_⟩
  rw [mem_blk]
  intro a
  match a with
  | ⟨0, _⟩ => show win3_7.index t (0 : Fin 2) * 32 ≤ (i 0).val ∧ (i 0).val < win3_7.index t (0 : Fin 2) * 32 + 32; omega
  | ⟨1, _⟩ => show win3_7.index t (1 : Fin 2) * 3 ≤ (i 1).val ∧ (i 1).val < win3_7.index t (1 : Fin 2) * 3 + 3; omega

/-! ## The array after the run -/

/-- THE RESULT ARRAY after the region has run is the classifier of the arrays the region finds: every point writes back
    its block of it (`flushed_eq`) and the blocks cover the array (`cover`). -/
theorem final3_7 (c : Dev nD) :
    (dat3 (F := Ideal) V c).arrAt 7 cfg3.N
      = Spec.head (M := 128) (K := 4096) (N1 := 2048) (N2 := 2048) (N3 := 3) (V c main_v8) (V c main_v9) (KHead.row (V c main_v12))
          (V c main_v10) (KHead.row (V c main_v13)) (V c main_v11) (KHead.row (V c main_v14)) :=
  (dat3 V c).arrAt_eq_of_cover 7 (G V c) (fun t _ => flushed_eq V c t) cover

end Cert.Final3

end
-- ==== Proof.KernelChain.lean ====
/-
  The kernel program's result as a function of its arguments. The program is four regions among host operations; each
  region's result arrays are whole-array functions of what the region finds (the four `Final` modules), a host operation
  changes only the array it writes, and a region changes only its result arrays. Following the result array back
  through the boundaries gives the classifier of the two joined aggregates, each the compare-and-add of one side of the
  alignment: `Spec.logits` of the arguments. (Narrowing a float format is the identity on the extended reals, and
  a vector reshaped to a one-row matrix has the same entries.)
-/
import proofs.«113778_j36386962932383_1_alg».proof.Proof.Gen.KernelIdeal.Frame
import Idealize.ShloMosaic.Lib.Pipeline.Value
import Idealize.ShloMosaic.Lib.StableHlo.Run
import proofs.«113778_j36386962932383_1_alg».proof.Proof.Spec
import proofs.«113778_j36386962932383_1_alg».proof.Proof.LibCat
import proofs.«113778_j36386962932383_1_alg».proof.Proof.Final0
import proofs.«113778_j36386962932383_1_alg».proof.Proof.Final1
import proofs.«113778_j36386962932383_1_alg».proof.Proof.Final2
import proofs.«113778_j36386962932383_1_alg».proof.Proof.Final3

set_option maxRecDepth 16384

noncomputable section

namespace Cert.KernelChain

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The first stretch of host operations: the four narrowed copies are their arguments -/

theorem W1_v0 (c : Dev nD) : W1 (F := Ideal) m ρ c (Proc.devRef .tc main_v0) = m ((c.tc : Thread nD τ).loc main_arg0) := by
  show StableHlo.after hostOps0 (W0 m ρ c) (Proc.devRef .tc main_v0) = _
  after_results; rfl
theorem W1_v1 (c : Dev nD) : W1 (F := Ideal) m ρ c (Proc.devRef .tc main_v1) = m ((c.tc : Thread nD τ).loc main_arg1) := by
  show StableHlo.after hostOps0 (W0 m ρ c) (Proc.devRef .tc main_v1) = _
  after_results; rfl
theorem W1_v2 (c : Dev nD) : W1 (F := Ideal) m ρ c (Proc.devRef .tc main_v2) = m ((c.tc : Thread nD τ).loc main_arg2) := by
  show StableHlo.after hostOps0 (W0 m ρ c) (Proc.devRef .tc main_v2) = _
  after_results; rfl
theorem W1_v3 (c : Dev nD) : W1 (F := Ideal) m ρ c (Proc.devRef .tc main_v3) = m ((c.tc : Thread nD τ).loc main_arg3) := by
  show StableHlo.after hostOps0 (W0 m ρ c) (Proc.devRef .tc main_v3) = _
  after_results; rfl

/-- An array that none of the first three regions has among its windows' arrays is, when the last host stretch
    begins, what the first stretch left. -/
theorem W4_of_W1 (c : Dev nD) (b : Ref sig .tc) (h2 : ∀ w, Pipeline.arrRef spec2 w ≠ b) (h1 : ∀ w, Pipeline.arrRef spec1 w ≠ b)
    (h0 : ∀ w, Pipeline.arrRef spec0 w ≠ b) :
    W4 (F := Ideal) m ρ c (Proc.devRef .tc b) = W1 m ρ c (Proc.devRef .tc b) :=
  (W4_of_ne m ρ c b h2).trans ((W3_of_ne m ρ c b h1).trans (W2_of_ne m ρ c b h0))

theorem W1_arg4 (c : Dev nD) : W1 (F := Ideal) m ρ c (Proc.devRef .tc main_arg4) = m ((c.tc : Thread nD τ).loc main_arg4) := by
  show StableHlo.after hostOps0 (W0 m ρ c) (Proc.devRef .tc main_arg4) = _
  after_results
theorem W1_arg5 (c : Dev nD) : W1 (F := Ideal) m ρ c (Proc.devRef .tc main_arg5) = m ((c.tc : Thread nD τ).loc main_arg5) := by
  show StableHlo.after hostOps0 (W0 m ρ c) (Proc.devRef .tc main_arg5) = _
  after_results
theorem W1_arg6 (c : Dev nD) : W1 (F := Ideal) m ρ c (Proc.devRef .tc main_arg6) = m ((c.tc : Thread nD τ).loc main_arg6) := by
  show StableHlo.after hostOps0 (W0 m ρ c) (Proc.devRef .tc main_arg6) = _
  after_results
theorem W1_arg7 (c : Dev nD) : W1 (F := Ideal) m ρ c (Proc.devRef .tc main_arg7) = m ((c.tc : Thread nD τ).loc main_arg7) := by
  show StableHlo.after hostOps0 (W0 m ρ c) (Proc.devRef .tc main_arg7) = _
  after_results
theorem W1_arg8 (c : Dev nD) : W1 (F := Ideal) m ρ c (Proc.devRef .tc main_arg8) = m ((c.tc : Thread nD τ).loc main_arg8) := by
  show StableHlo.after hostOps0 (W0 m ρ c) (Proc.devRef .tc main_arg8) = _
  after_results
theorem W1_arg9 (c : Dev nD) : W1 (F := Ideal) m ρ c (Proc.devRef .tc main_arg9) = m ((c.tc : Thread nD τ).loc main_arg9) := by
  show StableHlo.after hostOps0 (W0 m ρ c) (Proc.devRef .tc main_arg9) = _
  after_results

/-! ## The last stretch of host operations -/

theorem W5_v8 (c : Dev nD) :
    W5 (F := Ideal) m ρ c (Proc.devRef .tc main_v8)
      = Spec.catCols (M := 128) (N1 := 2048) (N2 := 2048) (K := 4096) (W4 m ρ c (Proc.devRef .tc main_v5)) (W4 m ρ c (Proc.devRef .tc main_v6)) := by
  show StableHlo.after hostOps3 (W4 m ρ c) (Proc.devRef .tc main_v8) = _
  after_results
  exact LibCat.concatenate_cols2 _ _ concatenates_S128x2048_S128x2048_S128x4096_d1
theorem W5_v9 (c : Dev nD) : W5 (F := Ideal) m ρ c (Proc.devRef .tc main_v9) = W4 m ρ c (Proc.devRef .tc main_arg4) := by
  show StableHlo.after hostOps3 (W4 m ρ c) (Proc.devRef .tc main_v9) = _
  after_results; rfl
theorem W5_v10 (c : Dev nD) : W5 (F := Ideal) m ρ c (Proc.devRef .tc main_v10) = W4 m ρ c (Proc.devRef .tc main_arg6) := by
  show StableHlo.after hostOps3 (W4 m ρ c) (Proc.devRef .tc main_v10) = _
  after_results; rfl
theorem W5_v11 (c : Dev nD) : W5 (F := Ideal) m ρ c (Proc.devRef .tc main_v11) = W4 m ρ c (Proc.devRef .tc main_arg8) := by
  show StableHlo.after hostOps3 (W4 m ρ c) (Proc.devRef .tc main_v11) = _
  after_results; rfl
/-- A vector reshaped to a one-row matrix, read as that row, is the vector. -/
theorem row_reshape {N : ℕ} (x : (⟨1, ![N]⟩ : Shape).Idx → EReal) (h : (⟨1, ![N]⟩ : Shape).ShapeCasts ⟨2, ![1, N]⟩) :
    KHead.row (shapeCast ⟨2, ![1, N]⟩ x h) = Spec.vec x := by
  funext q
  exact shapeCast_apply x h (ix2 (0 : Fin 1) q) (ix1 q) (by
    rw [Shape.rowMajor_val_one, Shape.rowMajor_val_two]
    show q.val = 0 * N + q.val
    omega)

theorem W5_v12 (c : Dev nD) :
    KHead.row (W5 (F := Ideal) m ρ c (Proc.devRef .tc main_v12)) = Spec.vec (W4 m ρ c (Proc.devRef .tc main_arg5)) := by
  have e : W5 (F := Ideal) m ρ c (Proc.devRef .tc main_v12)
      = shapeCast S1x2048 (W4 m ρ c (Proc.devRef .tc main_arg5)) shapeCasts_S2048_S1x2048 := by
    show StableHlo.after hostOps3 (W4 m ρ c) (Proc.devRef .tc main_v12) = _
    after_results; rfl
  rw [e]; exact row_reshape _ _
theorem W5_v13 (c : Dev nD) :
    KHead.row (W5 (F := Ideal) m ρ c (Proc.devRef .tc main_v13)) = Spec.vec (W4 m ρ c (Proc.devRef .tc main_arg7)) := by
  have e : W5 (F := Ideal) m ρ c (Proc.devRef .tc main_v13)
      = shapeCast S1x2048 (W4 m ρ c (Proc.devRef .tc main_arg7)) shapeCasts_S2048_S1x2048 := by
    show StableHlo.after hostOps3 (W4 m ρ c) (Proc.devRef .tc main_v13) = _
    after_results; rfl
  rw [e]; exact row_reshape _ _
theorem W5_v14 (c : Dev nD) :
    KHead.row (W5 (F := Ideal) m ρ c (Proc.devRef .tc main_v14)) = Spec.vec (W4 m ρ c (Proc.devRef .tc main_arg9)) := by
  have e : W5 (F := Ideal) m ρ c (Proc.devRef .tc main_v14)
      = shapeCast S1x3 (W4 m ρ c (Proc.devRef .tc main_arg9)) shapeCasts_S3_S1x3 := by
    show StableHlo.after hostOps3 (W4 m ρ c) (Proc.devRef .tc main_v14) = _
    after_results; rfl
  rw [e]; exact row_reshape _ _

/-! ## Through the regions -/

/-- After the alignment region: the premises, the hypotheses and the compare weight as launched, the two results
    the soft alignments of the arguments. -/
theorem W2_v0 (c : Dev nD) : W2 (F := Ideal) m ρ c (Proc.devRef .tc main_v0) = m ((c.tc : Thread nD τ).loc main_arg0) :=
  (W2_arr m ρ c 0).trans ((Final0.kept0_0 (V1 m ρ) c).trans (W1_v0 m ρ c))
theorem W2_v1 (c : Dev nD) : W2 (F := Ideal) m ρ c (Proc.devRef .tc main_v1) = m ((c.tc : Thread nD τ).loc main_arg1) :=
  (W2_arr m ρ c 1).trans ((Final0.kept0_1 (V1 m ρ) c).trans (W1_v1 m ρ c))
theorem W2_v3 (c : Dev nD) : W2 (F := Ideal) m ρ c (Proc.devRef .tc main_v3) = m ((c.tc : Thread nD τ).loc main_arg3) :=
  (W2_of_ne m ρ c main_v3 (by decide)).trans (W1_v3 m ρ c)
theorem W2_v4_0 (c : Dev nD) : W2 (F := Ideal) m ρ c (Proc.devRef .tc main_v4_0) = Spec.betasOf (B := 128) (L := 256) (E := 512) (A := 256) (m ((c.tc : Thread nD τ).loc main_arg0)) (m ((c.tc : Thread nD τ).loc main_arg1)) (m ((c.tc : Thread nD τ).loc main_arg2)) := by
  refine (W2_arr m ρ c 3).trans ((Final0.final0_3 (V1 m ρ) c).trans ?_)
  show Spec.betasOf (B := 128) (L := 256) (E := 512) (A := 256) (W1 m ρ c (Proc.devRef .tc main_v0)) (W1 m ρ c (Proc.devRef .tc main_v1)) (W1 m ρ c (Proc.devRef .tc main_v2)) = _
  rw [W1_v0, W1_v1, W1_v2]
theorem W2_v4_1 (c : Dev nD) : W2 (F := Ideal) m ρ c (Proc.devRef .tc main_v4_1) = Spec.alphasOf (B := 128) (L := 256) (E := 512) (A := 256) (m ((c.tc : Thread nD τ).loc main_arg0)) (m ((c.tc : Thread nD τ).loc main_arg1)) (m ((c.tc : Thread nD τ).loc main_arg2)) := by
  refine (W2_arr m ρ c 4).trans ((Final0.final0_4 (V1 m ρ) c).trans ?_)
  show Spec.alphasOf (B := 128) (L := 256) (E := 512) (A := 256) (W1 m ρ c (Proc.devRef .tc main_v0)) (W1 m ρ c (Proc.devRef .tc main_v1)) (W1 m ρ c (Proc.devRef .tc main_v2)) = _
  rw [W1_v0, W1_v1, W1_v2]

/-- After the first compare region: its result the aggregate of the premises against their soft-aligned hypotheses. -/
theorem W3_v5 (c : Dev nD) : W3 (F := Ideal) m ρ c (Proc.devRef .tc main_v5) = Spec.cmpSum (B := 128) (L := 256) (E1 := 512) (E2 := 512) (K := 1024) (FF := 2048) (m ((c.tc : Thread nD τ).loc main_arg0)) (Spec.betasOf (B := 128) (L := 256) (E := 512) (A := 256) (m ((c.tc : Thread nD τ).loc main_arg0)) (m ((c.tc : Thread nD τ).loc main_arg1)) (m ((c.tc : Thread nD τ).loc main_arg2))) (m ((c.tc : Thread nD τ).loc main_arg3)) := by
  refine (W3_arr m ρ c 3).trans ((Final1.final1_3 (V2 m ρ) c).trans ?_)
  show Spec.cmpSum (B := 128) (L := 256) (E1 := 512) (E2 := 512) (K := 1024) (FF := 2048) (W2 m ρ c (Proc.devRef .tc main_v0)) (W2 m ρ c (Proc.devRef .tc main_v4_0)) (W2 m ρ c (Proc.devRef .tc main_v3)) = _
  rw [W2_v0, W2_v4_0, W2_v3]
theorem W3_v1 (c : Dev nD) : W3 (F := Ideal) m ρ c (Proc.devRef .tc main_v1) = m ((c.tc : Thread nD τ).loc main_arg1) :=
  (W3_of_ne m ρ c main_v1 (by decide)).trans (W2_v1 m ρ c)
theorem W3_v4_1 (c : Dev nD) : W3 (F := Ideal) m ρ c (Proc.devRef .tc main_v4_1) = Spec.alphasOf (B := 128) (L := 256) (E := 512) (A := 256) (m ((c.tc : Thread nD τ).loc main_arg0)) (m ((c.tc : Thread nD τ).loc main_arg1)) (m ((c.tc : Thread nD τ).loc main_arg2)) :=
  (W3_of_ne m ρ c main_v4_1 (by decide)).trans (W2_v4_1 m ρ c)
theorem W3_v3 (c : Dev nD) : W3 (F := Ideal) m ρ c (Proc.devRef .tc main_v3) = m ((c.tc : Thread nD τ).loc main_arg3) :=
  (W3_arr m ρ c 2).trans ((Final1.kept1_2 (V2 m ρ) c).trans (W2_v3 m ρ c))

/-- After the second compare region: its result the aggregate of the hypotheses against their soft-aligned premises. -/
theorem W4_v6 (c : Dev nD) : W4 (F := Ideal) m ρ c (Proc.devRef .tc main_v6) = Spec.cmpSum (B := 128) (L := 256) (E1 := 512) (E2 := 512) (K := 1024) (FF := 2048) (m ((c.tc : Thread nD τ).loc main_arg1)) (Spec.alphasOf (B := 128) (L := 256) (E := 512) (A := 256) (m ((c.tc : Thread nD τ).loc main_arg0)) (m ((c.tc : Thread nD τ).loc main_arg1)) (m ((c.tc : Thread nD τ).loc main_arg2))) (m ((c.tc : Thread nD τ).loc main_arg3)) := by
  refine (W4_arr m ρ c 3).trans ((Final2.final2_3 (V3 m ρ) c).trans ?_)
  show Spec.cmpSum (B := 128) (L := 256) (E1 := 512) (E2 := 512) (K := 1024) (FF := 2048) (W3 m ρ c (Proc.devRef .tc main_v1)) (W3 m ρ c (Proc.devRef .tc main_v4_1)) (W3 m ρ c (Proc.devRef .tc main_v3)) = _
  rw [W3_v1, W3_v4_1, W3_v3]
theorem W4_v5 (c : Dev nD) : W4 (F := Ideal) m ρ c (Proc.devRef .tc main_v5) = Spec.cmpSum (B := 128) (L := 256) (E1 := 512) (E2 := 512) (K := 1024) (FF := 2048) (m ((c.tc : Thread nD τ).loc main_arg0)) (Spec.betasOf (B := 128) (L := 256) (E := 512) (A := 256) (m ((c.tc : Thread nD τ).loc main_arg0)) (m ((c.tc : Thread nD τ).loc main_arg1)) (m ((c.tc : Thread nD τ).loc main_arg2))) (m ((c.tc : Thread nD τ).loc main_arg3)) :=
  (W4_of_ne m ρ c main_v5 (by decide)).trans (W3_v5 m ρ c)
theorem W4_arg4 (c : Dev nD) : W4 (F := Ideal) m ρ c (Proc.devRef .tc main_arg4) = m ((c.tc : Thread nD τ).loc main_arg4) :=
  (W4_of_W1 m ρ c main_arg4 (by decide) (by decide) (by decide)).trans (W1_arg4 m ρ c)
theorem W4_arg5 (c : Dev nD) : W4 (F := Ideal) m ρ c (Proc.devRef .tc main_arg5) = m ((c.tc : Thread nD τ).loc main_arg5) :=
  (W4_of_W1 m ρ c main_arg5 (by decide) (by decide) (by decide)).trans (W1_arg5 m ρ c)
theorem W4_arg6 (c : Dev nD) : W4 (F := Ideal) m ρ c (Proc.devRef .tc main_arg6) = m ((c.tc : Thread nD τ).loc main_arg6) :=
  (W4_of_W1 m ρ c main_arg6 (by decide) (by decide) (by decide)).trans (W1_arg6 m ρ c)
theorem W4_arg7 (c : Dev nD) : W4 (F := Ideal) m ρ c (Proc.devRef .tc main_arg7) = m ((c.tc : Thread nD τ).loc main_arg7) :=
  (W4_of_W1 m ρ c main_arg7 (by decide) (by decide) (by decide)).trans (W1_arg7 m ρ c)
theorem W4_arg8 (c : Dev nD) : W4 (F := Ideal) m ρ c (Proc.devRef .tc main_arg8) = m ((c.tc : Thread nD τ).loc main_arg8) :=
  (W4_of_W1 m ρ c main_arg8 (by decide) (by decide) (by decide)).trans (W1_arg8 m ρ c)
theorem W4_arg9 (c : Dev nD) : W4 (F := Ideal) m ρ c (Proc.devRef .tc main_arg9) = m ((c.tc : Thread nD τ).loc main_arg9) :=
  (W4_of_W1 m ρ c main_arg9 (by decide) (by decide) (by decide)).trans (W1_arg9 m ρ c)

/-! ## The result -/

theorem result_eq (c : Dev nD) :
    W6 (F := Ideal) m ρ c (Proc.devRef .tc main_v15)
      = Spec.logits (B := 128) (L := 256) (E := 512) (A := 256) (K := 1024) (FF := 2048) (FF2 := 4096) (N1 := 2048) (N2 := 2048) (N3 := 3)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 7).trans ((Final3.final3_7 (V5 m ρ) c).trans ?_)
  show Spec.head (M := 128) (K := 4096) (N1 := 2048) (N2 := 2048) (N3 := 3) (W5 m ρ c (Proc.devRef .tc main_v8)) (W5 m ρ c (Proc.devRef .tc main_v9))
      (KHead.row (W5 m ρ c (Proc.devRef .tc main_v12))) (W5 m ρ c (Proc.devRef .tc main_v10)) (KHead.row (W5 m ρ c (Proc.devRef .tc main_v13)))
      (W5 m ρ c (Proc.devRef .tc main_v11)) (KHead.row (W5 m ρ c (Proc.devRef .tc main_v14))) = _
  rw [W5_v8, W5_v9, W5_v12, W5_v10, W5_v13, W5_v11, W5_v14, W4_v5, W4_v6, W4_arg4, W4_arg5, W4_arg6, W4_arg7, W4_arg8, W4_arg9]
  rfl

end Cert.KernelChain

end
-- ==== Proof.RefValue.lean ====
/-
  The reference program's result array after its run, as a function of the launch contents: the fold of its forty-six
  operations over the launch contents, read at the result, is the last stage `val_main_v40` of the arguments. The list is
  read in four pieces cut before each concatenate; within a piece every operation's result is its function of the
  buffers it reads, and a buffer a piece does not write passes through it.
-/
import proofs.«113778_j36386962932383_1_alg».proof.Proof.RefRead
import Idealize.ShloMosaic.Lib.StableHlo.Run

noncomputable section

namespace Cert.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over two lists one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Operations 1–21: the two soft alignments, from the three argument buffers they read -/

theorem afterA_v16 (W : Valuation τ sig (Elt F)) :
    after (opsA (F := F)) W (Proc.devRef .tc main_v16)
      = val_main_v16 (F := F) (W (Proc.devRef .tc main_arg0)) (W (Proc.devRef .tc main_arg1)) (W (Proc.devRef .tc main_arg2)) := by
  after_results_simp
  rfl

theorem afterA_v17 (W : Valuation τ sig (Elt F)) :
    after (opsA (F := F)) W (Proc.devRef .tc main_v17)
      = val_main_v17 (F := F) (W (Proc.devRef .tc main_arg0)) (W (Proc.devRef .tc main_arg1)) (W (Proc.devRef .tc main_arg2)) := by
  after_results_simp
  rfl

/-! ## Operations 22–24: the first compared rows, from the first argument, its alignment and the compare weight -/

theorem afterB_v20 (W : Valuation τ sig (Elt F)) (x0 x1 : (⟨S128x256x512, .f32⟩ : BufTy).Contents (Elt F)) (x2 : (⟨S512x256, .f32⟩ : BufTy).Contents (Elt F)) (x3 : (⟨S1024x2048, .f32⟩ : BufTy).Contents (Elt F))
    (h0 : W (Proc.devRef .tc main_arg0) = x0) (h16 : W (Proc.devRef .tc main_v16) = val_main_v16 (F := F) x0 x1 x2) (h3 : W (Proc.devRef .tc main_arg3) = x3) :
    after (opsB (F := F)) W (Proc.devRef .tc main_v20) = val_main_v20 (F := F) x0 x1 x2 x3 := by
  after_results_simp
  rw [h0, h16, h3]
  rfl

/-! ## Operations 25–31: the two row sums -/

theorem afterC_v24 (W : Valuation τ sig (Elt F)) (x0 x1 : (⟨S128x256x512, .f32⟩ : BufTy).Contents (Elt F)) (x2 : (⟨S512x256, .f32⟩ : BufTy).Contents (Elt F)) (x3 : (⟨S1024x2048, .f32⟩ : BufTy).Contents (Elt F))
    (h20 : W (Proc.devRef .tc main_v20) = val_main_v20 (F := F) x0 x1 x2 x3) :
    after (opsC (F := F)) W (Proc.devRef .tc main_v24) = val_main_v24 (F := F) x0 x1 x2 x3 := by
  after_results_simp
  rw [h20]
  rfl

theorem afterC_v25 (W : Valuation τ sig (Elt F)) (x0 x1 : (⟨S128x256x512, .f32⟩ : BufTy).Contents (Elt F)) (x2 : (⟨S512x256, .f32⟩ : BufTy).Contents (Elt F)) (x3 : (⟨S1024x2048, .f32⟩ : BufTy).Contents (Elt F))
    (h1 : W (Proc.devRef .tc main_arg1) = x1) (h17 : W (Proc.devRef .tc main_v17) = val_main_v17 (F := F) x0 x1 x2) (h3 : W (Proc.devRef .tc main_arg3) = x3) :
    after (opsC (F := F)) W (Proc.devRef .tc main_v25) = val_main_v25 (F := F) x0 x1 x2 x3 := by
  after_results_simp
  rw [h1, h17, h3]
  rfl

/-! ## Operations 32–46: the head, from the two row sums and the six head arguments -/

theorem afterD_v40 (W : Valuation τ sig (Elt F)) (x0 x1 : (⟨S128x256x512, .f32⟩ : BufTy).Contents (Elt F)) (x2 : (⟨S512x256, .f32⟩ : BufTy).Contents (Elt F)) (x3 : (⟨S1024x2048, .f32⟩ : BufTy).Contents (Elt F)) (x4 : (⟨S4096x2048, .f32⟩ : BufTy).Contents (Elt F)) (x5 : (⟨S2048, .f32⟩ : BufTy).Contents (Elt F)) (x6 : (⟨S2048x2048, .f32⟩ : BufTy).Contents (Elt F)) (x7 : (⟨S2048, .f32⟩ : BufTy).Contents (Elt F)) (x8 : (⟨S2048x3, .f32⟩ : BufTy).Contents (Elt F)) (x9 : (⟨S3, .f32⟩ : BufTy).Contents (Elt F))
    (h24 : W (Proc.devRef .tc main_v24) = val_main_v24 (F := F) x0 x1 x2 x3) (h25 : W (Proc.devRef .tc main_v25) = val_main_v25 (F := F) x0 x1 x2 x3)
    (h4 : W (Proc.devRef .tc main_arg4) = x4) (h5 : W (Proc.devRef .tc main_arg5) = x5) (h6 : W (Proc.devRef .tc main_arg6) = x6)
    (h7 : W (Proc.devRef .tc main_arg7) = x7) (h8 : W (Proc.devRef .tc main_arg8) = x8) (h9 : W (Proc.devRef .tc main_arg9) = x9) :
    after (opsD (F := F)) W (Proc.devRef .tc main_v40) = val_main_v40 (F := F) x0 x1 x2 x3 x4 x5 x6 x7 x8 x9 := by
  after_results_simp
  rw [h24, h25, h4, h5, h6, h7, h8, h9]
  rfl

/-! ## Buffers a piece does not write pass through it -/

theorem passA_arg0 (W : Valuation τ sig (Elt F)) :
    after (opsA (F := F)) W (Proc.devRef .tc main_arg0) = W (Proc.devRef .tc main_arg0) := by
  after_results_simp

theorem passA_arg3 (W : Valuation τ sig (Elt F)) :
    after (opsA (F := F)) W (Proc.devRef .tc main_arg3) = W (Proc.devRef .tc main_arg3) := by
  after_results_simp

theorem passB_v17 (W : Valuation τ sig (Elt F)) :
    after (opsB (F := F)) W (Proc.devRef .tc main_v17) = W (Proc.devRef .tc main_v17) := by
  after_results_simp

theorem passAB_arg1 (W : Valuation τ sig (Elt F)) :
    after (opsB (F := F)) (after (opsA (F := F)) W) (Proc.devRef .tc main_arg1) = W (Proc.devRef .tc main_arg1) := by
  after_results_simp

theorem passAB_arg3 (W : Valuation τ sig (Elt F)) :
    after (opsB (F := F)) (after (opsA (F := F)) W) (Proc.devRef .tc main_arg3) = W (Proc.devRef .tc main_arg3) := by
  after_results_simp

theorem passABC_arg4 (W : Valuation τ sig (Elt F)) :
    after (opsC (F := F)) (after (opsB (F := F)) (after (opsA (F := F)) W)) (Proc.devRef .tc main_arg4) = W (Proc.devRef .tc main_arg4) := by
  after_results_simp

theorem passABC_arg5 (W : Valuation τ sig (Elt F)) :
    after (opsC (F := F)) (after (opsB (F := F)) (after (opsA (F := F)) W)) (Proc.devRef .tc main_arg5) = W (Proc.devRef .tc main_arg5) := by
  after_results_simp

theorem passABC_arg6 (W : Valuation τ sig (Elt F)) :
    after (opsC (F := F)) (after (opsB (F := F)) (after (opsA (F := F)) W)) (Proc.devRef .tc main_arg6) = W (Proc.devRef .tc main_arg6) := by
  after_results_simp

theorem passABC_arg7 (W : Valuation τ sig (Elt F)) :
    after (opsC (F := F)) (after (opsB (F := F)) (after (opsA (F := F)) W)) (Proc.devRef .tc main_arg7) = W (Proc.devRef .tc main_arg7) := by
  after_results_simp

theorem passABC_arg8 (W : Valuation τ sig (Elt F)) :
    after (opsC (F := F)) (after (opsB (F := F)) (after (opsA (F := F)) W)) (Proc.devRef .tc main_arg8) = W (Proc.devRef .tc main_arg8) := by
  after_results_simp

theorem passABC_arg9 (W : Valuation τ sig (Elt F)) :
    after (opsC (F := F)) (after (opsB (F := F)) (after (opsA (F := F)) W)) (Proc.devRef .tc main_arg9) = W (Proc.devRef .tc main_arg9) := by
  after_results_simp

/-! ## The whole list -/

theorem result_after (m : (ℓ : Loc nD τ sig) → Buf (Elt F) ℓ) (c : Dev nD) :
    after (ops (F := F)) (launchContents m c) (Proc.devRef .tc main_v40)
      = val_main_v40 (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  rw [ops_split, after_append, after_append, after_append]
  -- the two alignments after the first piece, at the launch contents
  have h16 : after (opsA (F := F)) (launchContents m c) (Proc.devRef .tc main_v16) = val_main_v16 (F := F) (m ((c.tc : Thread nD τ).loc main_arg0)) (m ((c.tc : Thread nD τ).loc main_arg1)) (m ((c.tc : Thread nD τ).loc main_arg2)) :=
    afterA_v16 _
  have h17 : after (opsB (F := F)) (after (opsA (F := F)) (launchContents m c)) (Proc.devRef .tc main_v17) = val_main_v17 (F := F) (m ((c.tc : Thread nD τ).loc main_arg0)) (m ((c.tc : Thread nD τ).loc main_arg1)) (m ((c.tc : Thread nD τ).loc main_arg2)) :=
    (passB_v17 _).trans (afterA_v17 _)
  -- the first compared rows after the second piece
  have h20 := afterB_v20 (F := F) _ (m ((c.tc : Thread nD τ).loc main_arg0)) (m ((c.tc : Thread nD τ).loc main_arg1)) (m ((c.tc : Thread nD τ).loc main_arg2)) (m ((c.tc : Thread nD τ).loc main_arg3)) (passA_arg0 (launchContents m c)) h16 (passA_arg3 (launchContents m c))
  -- the two row sums after the third piece
  have h24 := afterC_v24 (F := F) _ (m ((c.tc : Thread nD τ).loc main_arg0)) (m ((c.tc : Thread nD τ).loc main_arg1)) (m ((c.tc : Thread nD τ).loc main_arg2)) (m ((c.tc : Thread nD τ).loc main_arg3)) h20
  have h25 := afterC_v25 (F := F) _ (m ((c.tc : Thread nD τ).loc main_arg0)) (m ((c.tc : Thread nD τ).loc main_arg1)) (m ((c.tc : Thread nD τ).loc main_arg2)) (m ((c.tc : Thread nD τ).loc main_arg3)) (passAB_arg1 (launchContents m c)) h17 (passAB_arg3 (launchContents m c))
  exact afterD_v40 (F := F) _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) h24 h25
    (passABC_arg4 (launchContents m c)) (passABC_arg5 (launchContents m c)) (passABC_arg6 (launchContents m c))
    (passABC_arg7 (launchContents m c)) (passABC_arg8 (launchContents m c)) (passABC_arg9 (launchContents m c))

end Cert.RefValue

end
-- ==== Proof.RefAlign.lean ====
/-
  The reference's two soft alignments, stage by stage, are the functions of the specification: its two projections
  (a dot product over the features and a tanh), the batched inner products, the softmax along the last axis written out
  (row maximum, shifted exponentials, their row sums, the quotient), and the two batched products of the attention
  weights with the hypotheses and, contracted over the premise tokens, with the premises.
-/
import proofs.«113778_j36386962932383_1_alg».proof.Proof.RefRead
import proofs.«113778_j36386962932383_1_alg».proof.Proof.Spec

noncomputable section

namespace Cert.RefAlign

open Cert.ReferenceIdeal Cert.ReferenceIdeal.Gen Cert.ReferenceIdeal.ReadP
open Idealize.ShloMosaic Idealize.ShloMosaic.TcCoe Idealize.ShloMosaic.ValueIdx Idealize.SL.Sem

/-! ## The two projections -/

/-- A dot product over the 512 features, then tanh: the projection of the first argument. -/
theorem v1_eq (x0 : (⟨S128x256x512, .f32⟩ : BufTy).Contents (Elt Ideal)) (x2 : (⟨S512x256, .f32⟩ : BufTy).Contents (Elt Ideal)) :
    val_main_v1 (F := Ideal) x0 x2 = Spec.proj (B := 128) (L := 256) (E := 512) (A := 256) x0 x2 := by
  funext i
  obtain ⟨b, p, a, rfl⟩ : ∃ (b : Fin 128) (p : Fin 256) (a : Fin 256), i = ix3 b p a := ⟨i 0, i 1, i 2, eq_ix3 i⟩
  rw [val_main_v1_apply, val_main_v0_apply, Spec.proj_apply, Ideal.hostUnary_tanh_def]
  refine congrArg Ideal.tanh (Finset.sum_congr rfl fun k _ => ?_)
  have el : lidx_main_v0 (ix3 b p a) k = ix3 b p k :=
    funext fun c => Fin.ext (by match c with | ⟨0, _⟩ => rfl | ⟨1, _⟩ => rfl | ⟨2, _⟩ => rfl)
  have er : ridx_main_v0 (ix3 b p a) k = ix2 k a :=
    funext fun c => Fin.ext (by match c with | ⟨0, _⟩ => rfl | ⟨1, _⟩ => rfl)
  rw [el, er]

/-- The same projection of the second argument. -/
theorem v3_eq (x1 : (⟨S128x256x512, .f32⟩ : BufTy).Contents (Elt Ideal)) (x2 : (⟨S512x256, .f32⟩ : BufTy).Contents (Elt Ideal)) :
    val_main_v3 (F := Ideal) x1 x2 = Spec.proj (B := 128) (L := 256) (E := 512) (A := 256) x1 x2 := by
  funext i
  obtain ⟨b, p, a, rfl⟩ : ∃ (b : Fin 128) (p : Fin 256) (a : Fin 256), i = ix3 b p a := ⟨i 0, i 1, i 2, eq_ix3 i⟩
  rw [val_main_v3_apply, val_main_v2_apply, Spec.proj_apply, Ideal.hostUnary_tanh_def]
  refine congrArg Ideal.tanh (Finset.sum_congr rfl fun k _ => ?_)
  have el : lidx_main_v2 (ix3 b p a) k = ix3 b p k :=
    funext fun c => Fin.ext (by match c with | ⟨0, _⟩ => rfl | ⟨1, _⟩ => rfl | ⟨2, _⟩ => rfl)
  have er : ridx_main_v2 (ix3 b p a) k = ix2 k a :=
    funext fun c => Fin.ext (by match c with | ⟨0, _⟩ => rfl | ⟨1, _⟩ => rfl)
  rw [el, er]

/-! ## The scores -/

/-- The batched dot product over the 256 projected features: the inner products of the two projections. -/
theorem v4_eq (x0 x1 : (⟨S128x256x512, .f32⟩ : BufTy).Contents (Elt Ideal)) (x2 : (⟨S512x256, .f32⟩ : BufTy).Contents (Elt Ideal)) :
    val_main_v4 (F := Ideal) x0 x1 x2
      = Spec.scores (B := 128) (L := 256) (A := 256) (val_main_v1 (F := Ideal) x0 x2) (val_main_v3 (F := Ideal) x1 x2) := by
  funext i
  obtain ⟨b, p, h, rfl⟩ : ∃ (b : Fin 128) (p : Fin 256) (h : Fin 256), i = ix3 b p h := ⟨i 0, i 1, i 2, eq_ix3 i⟩
  rw [val_main_v4_apply, Spec.scores_apply]
  refine Finset.sum_congr rfl fun k _ => ?_
  have el : lidx_main_v4 (ix3 b p h) k = ix3 b p k :=
    funext fun c => Fin.ext (by match c with | ⟨0, _⟩ => rfl | ⟨1, _⟩ => rfl | ⟨2, _⟩ => rfl)
  have er : ridx_main_v4 (ix3 b p h) k = ix3 b h k :=
    funext fun c => Fin.ext (by match c with | ⟨0, _⟩ => rfl | ⟨1, _⟩ => rfl | ⟨2, _⟩ => rfl)
  rw [el, er]

/-! ## The row maximum -/

/-- A [n0, n1] index with the coordinate `k` put back on the dropped last axis is (b, p, k). -/
theorem lift_last3 {n0 n1 n2 : Nat} (h : (⟨3, ![n0, n1, n2]⟩ : Shape).Reduces [2] (⟨2, ![n0, n1]⟩ : Shape))
    (b : Fin n0) (p : Fin n1) (k : Fin ((⟨3, ![n0, n1, n2]⟩ : Shape).size 2)) :
    h.lift (ix2 b p) k = ix3 b p (⟨k.val, k.isLt⟩ : Fin n2) := by
  funext c; apply Fin.ext
  fin_cases c <;> rfl

/-- The reduce with a maximum body along the last axis, from the constant of minus infinity, at (b, p): the fold of
    max from that value over the row's entries. -/
theorem hostReduce_max_last (S : (⟨S128x256x256, .f32⟩ : BufTy).Contents (Elt Ideal)) (b : Fin 128) (p : Fin 256) :
    Host.reduce (FloatOps.maximumf (F := Ideal) (φ := .f32)) S (val_main_cst (F := Ideal)) reducesTo_S128x256x256_S128x256_d2 h_S_ (ix2 b p)
      = (Finset.univ : Finset (Fin 256)).fold max Spec.negInf fun h => S (ix3 b p h) := by
  have hr : S128x256x256.Reduces [2] S128x256 := by decide
  refine (Host.reduce_eq_fold_single (FloatOps.maximumf (F := Ideal) (φ := .f32)) S _ reducesTo_S128x256x256_S128x256_d2 hr h_S_ (ix2 b p)).trans ?_
  have hf : (S ∘ hr.lift (ix2 b p)) = fun k : Fin 256 => S (ix3 b p k) := funext fun k => congrArg S (lift_last3 hr b p k)
  rw [hf]
  rfl

/-- The maximum of the constant's broadcast with that reduce, at (b, p): the row maximum of the scores. -/
theorem v7_at (x0 x1 : (⟨S128x256x512, .f32⟩ : BufTy).Contents (Elt Ideal)) (x2 : (⟨S512x256, .f32⟩ : BufTy).Contents (Elt Ideal)) (b : Fin 128) (p : Fin 256) :
    val_main_v7 (F := Ideal) x0 x1 x2 (ix2 b p) = Spec.rowMax (B := 128) (L := 256) (val_main_v4 (F := Ideal) x0 x1 x2) b p := by
  rw [val_main_v7_apply, val_main_v6_apply, val_main_cst_0_apply, Ideal.maximumf_def, Ideal.ofBits_def]
  unfold val_main_v5
  rw [hostReduce_max_last]
  rfl

/-! ## The shifted exponentials, their row sums, the quotient -/

/-- The row maximum broadcast back along the last axis, subtracted, exponentiated. -/
theorem v11_eq (x0 x1 : (⟨S128x256x512, .f32⟩ : BufTy).Contents (Elt Ideal)) (x2 : (⟨S512x256, .f32⟩ : BufTy).Contents (Elt Ideal)) :
    val_main_v11 (F := Ideal) x0 x1 x2 = Spec.expShift (B := 128) (L := 256) (val_main_v4 (F := Ideal) x0 x1 x2) := by
  funext i
  obtain ⟨b, p, h, rfl⟩ : ∃ (b : Fin 128) (p : Fin 256) (h : Fin 256), i = ix3 b p h := ⟨i 0, i 1, i 2, eq_ix3 i⟩
  rw [val_main_v11_apply, val_main_v10_apply, val_main_v9_apply, val_main_v8_apply, Spec.expShift_apply,
    Ideal.hostUnary_exp_def, Ideal.subf_def]
  have e : idx_main_v8 (idx_main_v9 (ix3 b p h)) = ix2 b p :=
    funext fun c => Fin.ext (by match c with | ⟨0, _⟩ => rfl | ⟨1, _⟩ => rfl)
  rw [e, v7_at]

/-- The sum along the last axis from the zero constant, at (b, p): the row sum of the shifted exponentials. -/
theorem v12_at (x0 x1 : (⟨S128x256x512, .f32⟩ : BufTy).Contents (Elt Ideal)) (x2 : (⟨S512x256, .f32⟩ : BufTy).Contents (Elt Ideal)) (b : Fin 128) (p : Fin 256) :
    val_main_v12 (F := Ideal) x0 x1 x2 (ix2 b p)
      = ∑ h : Fin 256, Spec.expShift (B := 128) (L := 256) (val_main_v4 (F := Ideal) x0 x1 x2) (ix3 b p h) := by
  rw [val_main_v12_apply, val_main_cst_1_apply, Ideal.ofBits_def, Ideal.ofBits_zero_f32, zero_add, v11_eq]
  refine Finset.sum_congr rfl fun k _ => ?_
  have e : idx_main_v12 (ix2 b p) k = ix3 b p k :=
    funext fun c => Fin.ext (by match c with | ⟨0, _⟩ => rfl | ⟨1, _⟩ => rfl | ⟨2, _⟩ => rfl)
  rw [e]

/-- The shifted exponentials over their row sums broadcast back: the softmax of the scores. -/
theorem v15_eq (x0 x1 : (⟨S128x256x512, .f32⟩ : BufTy).Contents (Elt Ideal)) (x2 : (⟨S512x256, .f32⟩ : BufTy).Contents (Elt Ideal)) :
    val_main_v15 (F := Ideal) x0 x1 x2 = Spec.softmax (B := 128) (L := 256) (val_main_v4 (F := Ideal) x0 x1 x2) := by
  funext i
  obtain ⟨b, p, h, rfl⟩ : ∃ (b : Fin 128) (p : Fin 256) (h : Fin 256), i = ix3 b p h := ⟨i 0, i 1, i 2, eq_ix3 i⟩
  rw [val_main_v15_apply, val_main_v14_apply, val_main_v13_apply, Spec.softmax_apply, Ideal.hostDivf_def]
  have e : idx_main_v13 (idx_main_v14 (ix3 b p h)) = ix2 b p :=
    funext fun c => Fin.ext (by match c with | ⟨0, _⟩ => rfl | ⟨1, _⟩ => rfl)
  rw [e, v12_at, v11_eq]

/-! ## The two products with the attention weights -/

/-- The batched product over the hypothesis tokens of the weights with the second argument. -/
theorem v16_betas (x0 x1 : (⟨S128x256x512, .f32⟩ : BufTy).Contents (Elt Ideal)) (x2 : (⟨S512x256, .f32⟩ : BufTy).Contents (Elt Ideal)) :
    val_main_v16 (F := Ideal) x0 x1 x2
      = Spec.betas (B := 128) (L := 256) (E := 512) (val_main_v15 (F := Ideal) x0 x1 x2) x1 := by
  funext i
  obtain ⟨b, p, e, rfl⟩ : ∃ (b : Fin 128) (p : Fin 256) (e : Fin 512), i = ix3 b p e := ⟨i 0, i 1, i 2, eq_ix3 i⟩
  rw [val_main_v16_apply, Spec.betas_apply]
  refine Finset.sum_congr rfl fun k _ => ?_
  have el : lidx_main_v16 (ix3 b p e) k = ix3 b p k :=
    funext fun c => Fin.ext (by match c with | ⟨0, _⟩ => rfl | ⟨1, _⟩ => rfl | ⟨2, _⟩ => rfl)
  have er : ridx_main_v16 (ix3 b p e) k = ix3 b k e :=
    funext fun c => Fin.ext (by match c with | ⟨0, _⟩ => rfl | ⟨1, _⟩ => rfl | ⟨2, _⟩ => rfl)
  rw [el, er]

/-- The batched product over the premise tokens (the weights' middle axis) of the weights with the first argument. -/
theorem v17_alphas (x0 x1 : (⟨S128x256x512, .f32⟩ : BufTy).Contents (Elt Ideal)) (x2 : (⟨S512x256, .f32⟩ : BufTy).Contents (Elt Ideal)) :
    val_main_v17 (F := Ideal) x0 x1 x2
      = Spec.alphas (B := 128) (L := 256) (E := 512) (val_main_v15 (F := Ideal) x0 x1 x2) x0 := by
  funext i
  obtain ⟨b, h, e, rfl⟩ : ∃ (b : Fin 128) (h : Fin 256) (e : Fin 512), i = ix3 b h e := ⟨i 0, i 1, i 2, eq_ix3 i⟩
  rw [val_main_v17_apply, Spec.alphas_apply]
  refine Finset.sum_congr rfl fun k _ => ?_
  have el : lidx_main_v17 (ix3 b h e) k = ix3 b k h :=
    funext fun c => Fin.ext (by match c with | ⟨0, _⟩ => rfl | ⟨1, _⟩ => rfl | ⟨2, _⟩ => rfl)
  have er : ridx_main_v17 (ix3 b h e) k = ix3 b k e :=
    funext fun c => Fin.ext (by match c with | ⟨0, _⟩ => rfl | ⟨1, _⟩ => rfl | ⟨2, _⟩ => rfl)
  rw [el, er]

/-- The attention weights of the reference are the specification's. -/
theorem v15_attn (x0 x1 : (⟨S128x256x512, .f32⟩ : BufTy).Contents (Elt Ideal)) (x2 : (⟨S512x256, .f32⟩ : BufTy).Contents (Elt Ideal)) :
    val_main_v15 (F := Ideal) x0 x1 x2 = Spec.attn (B := 128) (L := 256) (E := 512) (A := 256) x0 x1 x2 := by
  rw [v15_eq, v4_eq, v1_eq, v3_eq]
  rfl

/-! ## The two soft alignments -/

theorem v16_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) :
    val_main_v16 (F := Ideal) x0 x1 x2 = Spec.betasOf (B := 128) (L := 256) (E := 512) (A := 256) x0 x1 x2 := by
  rw [v16_betas, v15_attn]
  rfl

theorem v17_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) :
    val_main_v17 (F := Ideal) x0 x1 x2 = Spec.alphasOf (B := 128) (L := 256) (E := 512) (A := 256) x0 x1 x2 := by
  rw [v17_alphas, v15_attn]
  rfl

end Cert.RefAlign

end
-- ==== Proof.RefCompare.lean ====
/-
  The reference's two aggregates: each token joined with its soft-aligned vector, times the weight, through tanh, added
  over the tokens of the sentence — `Spec.cmpSum` of the stage before.
-/
import proofs.«113778_j36386962932383_1_alg».proof.Proof.RefRead
import proofs.«113778_j36386962932383_1_alg».proof.Proof.Spec
import proofs.«113778_j36386962932383_1_alg».proof.Proof.LibCat

noncomputable section

namespace Cert.RefCompare

open Cert.ReferenceIdeal Cert.ReferenceIdeal.Gen Cert.ReferenceIdeal.ReadP
open Idealize.ShloMosaic Idealize.ShloMosaic.TcCoe Idealize.ShloMosaic.ValueIdx Idealize.SL.Sem

/-- The index of the joined array that the product reads for output entry (b, p, f) at feature c is (b, p, c). -/
theorem lidx_v19 (b : Fin 128) (p : Fin 256) (f : Fin 2048) (c : Fin 1024) :
    lidx_main_v19 (ix3 b p f) c = ix3 b p c :=
  funext fun a => Fin.ext (by match a with | ⟨0, _⟩ => rfl | ⟨1, _⟩ => rfl | ⟨2, _⟩ => rfl)

/-- The index of the weight that the product reads for output entry (b, p, f) at feature c is (c, f). -/
theorem ridx_v19 (b : Fin 128) (p : Fin 256) (f : Fin 2048) (c : Fin 1024) :
    ridx_main_v19 (ix3 b p f) c = ix2 c f :=
  funext fun a => Fin.ext (by match a with | ⟨0, _⟩ => rfl | ⟨1, _⟩ => rfl)

/-- The sum over tokens reads entry (b, p, f) for output entry (b, f) at token p. -/
theorem idx_v24 (b : Fin 128) (f : Fin 2048) (p : Fin 256) :
    idx_main_v24 (ix2 b f) p = ix3 b p f :=
  funext fun a => Fin.ext (by match a with | ⟨0, _⟩ => rfl | ⟨1, _⟩ => rfl | ⟨2, _⟩ => rfl)

/-- The same three index equations for the second aggregate's product and sum. -/
theorem lidx_v22 (b : Fin 128) (p : Fin 256) (f : Fin 2048) (c : Fin 1024) :
    lidx_main_v22 (ix3 b p f) c = ix3 b p c :=
  funext fun a => Fin.ext (by match a with | ⟨0, _⟩ => rfl | ⟨1, _⟩ => rfl | ⟨2, _⟩ => rfl)

theorem ridx_v22 (b : Fin 128) (p : Fin 256) (f : Fin 2048) (c : Fin 1024) :
    ridx_main_v22 (ix3 b p f) c = ix2 c f :=
  funext fun a => Fin.ext (by match a with | ⟨0, _⟩ => rfl | ⟨1, _⟩ => rfl)

theorem idx_v25 (b : Fin 128) (f : Fin 2048) (p : Fin 256) :
    idx_main_v25 (ix2 b f) p = ix3 b p f :=
  funext fun a => Fin.ext (by match a with | ⟨0, _⟩ => rfl | ⟨1, _⟩ => rfl | ⟨2, _⟩ => rfl)

/-- A joined array times the weight, through tanh, added over the tokens from a zero start, is `Spec.cmpSum`:
    the sum's zero start is dropped by `zero_add`, the rest is the definition entry by entry. -/
theorem cmp_of_cat (X Y : Spec.T3 128 256 512) (G : Spec.M2 1024 2048) (b : Fin 128) (f : Fin 2048) :
    (FloatOps.ofBits (F := Ideal) .f32 0x00000000#32
      + ∑ p : Fin 256, FloatOps.hostUnary (F := Ideal) .tanh
          (∑ c : Fin 1024, Spec.cat2 (K := 1024) X Y (ix3 b p c) * G (ix2 c f)))
      = Spec.cmpSum (K := 1024) X Y G (ix2 b f) := by
  rw [Ideal.ofBits_def, Ideal.ofBits_zero_f32, zero_add]
  rfl

theorem v24_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) :
    val_main_v24 (F := Ideal) x0 x1 x2 x3
      = Spec.cmpSum (B := 128) (L := 256) (E1 := 512) (E2 := 512) (K := 1024) (FF := 2048) x0 (val_main_v16 (F := Ideal) x0 x1 x2) x3 := by
  funext i
  obtain ⟨b, f, rfl⟩ : ∃ b f, i = ix2 b f := ⟨i 0, i 1, eq_ix2 i⟩
  -- the joined array is `Spec.cat2` of the token array and the stage before
  have h18 : val_main_v18 (F := Ideal) x0 x1 x2 = Spec.cat2 (K := 1024) x0 (val_main_v16 (F := Ideal) x0 x1 x2) :=
    Cert.LibCat.concatenate_last3 x0 (val_main_v16 (F := Ideal) x0 x1 x2) _
  rw [val_main_v24_apply, val_main_cst_2_apply]
  simp only [idx_v24, val_main_v20_apply, val_main_v19_apply, lidx_v19, ridx_v19, h18]
  exact cmp_of_cat x0 _ x3 b f

theorem v25_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) :
    val_main_v25 (F := Ideal) x0 x1 x2 x3
      = Spec.cmpSum (B := 128) (L := 256) (E1 := 512) (E2 := 512) (K := 1024) (FF := 2048) x1 (val_main_v17 (F := Ideal) x0 x1 x2) x3 := by
  funext i
  obtain ⟨b, f, rfl⟩ : ∃ b f, i = ix2 b f := ⟨i 0, i 1, eq_ix2 i⟩
  -- the joined array is `Spec.cat2` of the token array and the stage before
  have h21 : val_main_v21 (F := Ideal) x0 x1 x2 = Spec.cat2 (K := 1024) x1 (val_main_v17 (F := Ideal) x0 x1 x2) :=
    Cert.LibCat.concatenate_last3 x1 (val_main_v17 (F := Ideal) x0 x1 x2) _
  rw [val_main_v25_apply, val_main_cst_3_apply]
  simp only [idx_v25, val_main_v23_apply, val_main_v22_apply, lidx_v22, ridx_v22, h21]
  exact cmp_of_cat x1 _ x3 b f

end Cert.RefCompare

end
-- ==== Proof.RefHead.lean ====
/-
  The reference's classifier: three matrix products, each plus its bias broadcast down the rows, tanh after the first
  two — `Spec.head` of the joined aggregates.
-/
import proofs.«113778_j36386962932383_1_alg».proof.Proof.RefRead
import proofs.«113778_j36386962932383_1_alg».proof.Proof.Spec

noncomputable section

namespace Cert.RefHead

open Cert.ReferenceIdeal Cert.ReferenceIdeal.Gen Cert.ReferenceIdeal.ReadP
open Idealize.ShloMosaic Idealize.ShloMosaic.TcCoe Idealize.ShloMosaic.ValueIdx Idealize.SL.Sem

/-! ## The index equations: which operand entries each product and each broadcast reads -/

theorem lidx_v27 (r : Fin 128) (q : Fin 2048) (k : Fin 4096) : lidx_main_v27 (ix2 r q) k = ix2 r k :=
  funext fun a => Fin.ext (by match a with | ⟨0, _⟩ => rfl | ⟨1, _⟩ => rfl)
theorem ridx_v27 (r : Fin 128) (q : Fin 2048) (k : Fin 4096) : ridx_main_v27 (ix2 r q) k = ix2 k q :=
  funext fun a => Fin.ext (by match a with | ⟨0, _⟩ => rfl | ⟨1, _⟩ => rfl)
theorem idx_v28_v29 (r : Fin 128) (q : Fin 2048) : idx_main_v28 (idx_main_v29 (ix2 r q)) = ix1 q :=
  funext fun a => Fin.ext (by match a with | ⟨0, _⟩ => rfl)

theorem lidx_v32 (r : Fin 128) (q : Fin 2048) (k : Fin 2048) : lidx_main_v32 (ix2 r q) k = ix2 r k :=
  funext fun a => Fin.ext (by match a with | ⟨0, _⟩ => rfl | ⟨1, _⟩ => rfl)
theorem ridx_v32 (r : Fin 128) (q : Fin 2048) (k : Fin 2048) : ridx_main_v32 (ix2 r q) k = ix2 k q :=
  funext fun a => Fin.ext (by match a with | ⟨0, _⟩ => rfl | ⟨1, _⟩ => rfl)
theorem idx_v33_v34 (r : Fin 128) (q : Fin 2048) : idx_main_v33 (idx_main_v34 (ix2 r q)) = ix1 q :=
  funext fun a => Fin.ext (by match a with | ⟨0, _⟩ => rfl)

theorem lidx_v37 (r : Fin 128) (q : Fin 3) (k : Fin 2048) : lidx_main_v37 (ix2 r q) k = ix2 r k :=
  funext fun a => Fin.ext (by match a with | ⟨0, _⟩ => rfl | ⟨1, _⟩ => rfl)
theorem ridx_v37 (r : Fin 128) (q : Fin 3) (k : Fin 2048) : ridx_main_v37 (ix2 r q) k = ix2 k q :=
  funext fun a => Fin.ext (by match a with | ⟨0, _⟩ => rfl | ⟨1, _⟩ => rfl)
theorem idx_v38_v39 (r : Fin 128) (q : Fin 3) : idx_main_v38 (idx_main_v39 (ix2 r q)) = ix1 q :=
  funext fun a => Fin.ext (by match a with | ⟨0, _⟩ => rfl)

/-! ## The stages, each as a `Spec` function of the stage before -/

/-- The first layer before its tanh: the joined aggregates times the first weight, plus the first bias on every row. -/
theorem v30_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) :
    val_main_v30 (F := Ideal) x0 x1 x2 x3 x4 x5
      = Spec.layer (M := 128) (K := 4096) (N := 2048) (val_main_v26 (F := Ideal) x0 x1 x2 x3) x4 (Spec.vec x5) := by
  funext i
  obtain ⟨r, q, rfl⟩ : ∃ r q, i = ix2 r q := ⟨i 0, i 1, eq_ix2 i⟩
  rw [val_main_v30_apply, val_main_v27_apply, val_main_v29_apply, val_main_v28_apply, idx_v28_v29]
  simp only [lidx_v27, ridx_v27]
  generalize val_main_v26 (F := Ideal) x0 x1 x2 x3 = y
  rfl

/-- The second layer before its tanh, from the first layer's output. -/
theorem v35_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) :
    val_main_v35 (F := Ideal) x0 x1 x2 x3 x4 x5 x6 x7
      = Spec.layer (M := 128) (K := 2048) (N := 2048) (val_main_v31 (F := Ideal) x0 x1 x2 x3 x4 x5) x6 (Spec.vec x7) := by
  funext i
  obtain ⟨r, q, rfl⟩ : ∃ r q, i = ix2 r q := ⟨i 0, i 1, eq_ix2 i⟩
  rw [val_main_v35_apply, val_main_v32_apply, val_main_v34_apply, val_main_v33_apply, idx_v33_v34]
  simp only [lidx_v32, ridx_v32]
  generalize val_main_v31 (F := Ideal) x0 x1 x2 x3 x4 x5 = y
  rfl

/-- The third layer, from the second layer's output. -/
theorem v40_layer (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) (x8 : (⟨S2048x3, .f32⟩ : BufTy).Contents (Elt Ideal)) (x9 : (⟨S3, .f32⟩ : BufTy).Contents (Elt Ideal)) :
    val_main_v40 (F := Ideal) x0 x1 x2 x3 x4 x5 x6 x7 x8 x9
      = Spec.layer (M := 128) (K := 2048) (N := 3) (val_main_v36 (F := Ideal) x0 x1 x2 x3 x4 x5 x6 x7) x8 (Spec.vec x9) := by
  funext i
  obtain ⟨r, q, rfl⟩ : ∃ r q, i = ix2 r q := ⟨i 0, i 1, eq_ix2 i⟩
  rw [val_main_v40_apply, val_main_v37_apply, val_main_v39_apply, val_main_v38_apply, idx_v38_v39]
  simp only [lidx_v37, ridx_v37]
  generalize val_main_v36 (F := Ideal) x0 x1 x2 x3 x4 x5 x6 x7 = y
  rfl

/-- tanh after the first layer. -/
theorem v31_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) :
    val_main_v31 (F := Ideal) x0 x1 x2 x3 x4 x5 = Spec.tanhM (val_main_v30 (F := Ideal) x0 x1 x2 x3 x4 x5) := by
  funext i
  rw [val_main_v31_apply]
  generalize val_main_v30 (F := Ideal) x0 x1 x2 x3 x4 x5 = y
  rfl

/-- tanh after the second layer. -/
theorem v36_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) :
    val_main_v36 (F := Ideal) x0 x1 x2 x3 x4 x5 x6 x7 = Spec.tanhM (val_main_v35 (F := Ideal) x0 x1 x2 x3 x4 x5 x6 x7) := by
  funext i
  rw [val_main_v36_apply]
  generalize val_main_v35 (F := Ideal) x0 x1 x2 x3 x4 x5 x6 x7 = y
  rfl

theorem v40_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) (x8 : (⟨S2048x3, .f32⟩ : BufTy).Contents (Elt Ideal)) (x9 : (⟨S3, .f32⟩ : BufTy).Contents (Elt Ideal)) :
    val_main_v40 (F := Ideal) x0 x1 x2 x3 x4 x5 x6 x7 x8 x9
      = Spec.head (M := 128) (K := 4096) (N1 := 2048) (N2 := 2048) (N3 := 3) (val_main_v26 (F := Ideal) x0 x1 x2 x3) x4 (Spec.vec x5) x6 (Spec.vec x7) x8 (Spec.vec x9) := by
  -- the three layers in turn, each read from the one before
  rw [v40_layer, v36_eq, v35_eq, v31_eq, v30_eq]
  generalize val_main_v26 (F := Ideal) x0 x1 x2 x3 = y
  exact rfl

end Cert.RefHead

end
-- ==== Proof.RefResult.lean ====
/-
  The reference's result is `Spec.logits` of its arguments: the alignment (RefAlign), the two aggregates (RefCompare),
  their join side by side, the classifier (RefHead).
-/
import proofs.«113778_j36386962932383_1_alg».proof.Proof.RefRead
import proofs.«113778_j36386962932383_1_alg».proof.Proof.Spec
import proofs.«113778_j36386962932383_1_alg».proof.Proof.LibCat
import proofs.«113778_j36386962932383_1_alg».proof.Proof.RefAlign
import proofs.«113778_j36386962932383_1_alg».proof.Proof.RefCompare
import proofs.«113778_j36386962932383_1_alg».proof.Proof.RefHead

noncomputable section

namespace Cert.RefResult

open Cert.ReferenceIdeal Cert.ReferenceIdeal.Gen Cert.ReferenceIdeal.ReadP
open Idealize.ShloMosaic Idealize.ShloMosaic.TcCoe Idealize.ShloMosaic.ValueIdx Idealize.SL.Sem

theorem result_eq (x0 : (⟨S128x256x512, .f32⟩ : BufTy).Contents (Elt Ideal)) (x1 : (⟨S128x256x512, .f32⟩ : BufTy).Contents (Elt Ideal)) (x2 : (⟨S512x256, .f32⟩ : BufTy).Contents (Elt Ideal)) (x3 : (⟨S1024x2048, .f32⟩ : BufTy).Contents (Elt Ideal)) (x4 : (⟨S4096x2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) (x8 : (⟨S2048x3, .f32⟩ : BufTy).Contents (Elt Ideal)) (x9 : (⟨S3, .f32⟩ : BufTy).Contents (Elt Ideal)) :
    val_main_v40 (F := Ideal) x0 x1 x2 x3 x4 x5 x6 x7 x8 x9
      = Spec.logits (B := 128) (L := 256) (E := 512) (A := 256) (K := 1024) (FF := 2048) (FF2 := 4096) (N1 := 2048) (N2 := 2048) (N3 := 3)
          x0 x1 x2 x3 x4 x5 x6 x7 x8 x9 := by
  rw [RefHead.v40_eq]
  unfold Spec.logits
  have e26 : val_main_v26 (F := Ideal) x0 x1 x2 x3
      = Spec.catCols (M := 128) (N1 := 2048) (N2 := 2048) (K := 4096) (val_main_v24 (F := Ideal) x0 x1 x2 x3) (val_main_v25 (F := Ideal) x0 x1 x2 x3) :=
    LibCat.concatenate_cols2 _ _ concatenates_S128x2048_S128x2048_S128x4096_d1
  rw [e26, RefCompare.v24_eq, RefCompare.v25_eq, RefAlign.v16_eq, RefAlign.v17_eq]

end Cert.RefResult

end
-- ==== Proof.lean ====
/-
  The certificate of the soft-alignment classifier kernel against its jnp reference, over the extended reals.

  The kernel program computes, on sixteen blocks of eight sentence pairs, the alignment of premises and hypotheses
  (tanh projections, their inner products, a softmax along the hypothesis tokens, and the two soft alignments), then
  twice, on blocks of eight pairs and 512 output features, the compare-and-aggregate step (each token joined with its
  aligned vector, times the weight, through tanh, added over the tokens), joins the two aggregates side by side on the
  host, and classifies blocks of 32 rows by three layers. The reference computes the same quantities for all 128 pairs
  at once. Every step treats the pairs of the batch independently (and the compare step the output features), so a block
  of the result is the result of the block: both programs end with `Spec.logits` of the arguments. No law beyond the
  reading of each operation at an index is needed: the two sides are the same sums over the same index sets, and narrowing
  a float format is the identity on the extended reals; the precondition is not used.

  The three frames are the programs' runs (the reference's with its result dropped); the kernel's idealization rewrote no
  operation, so there is nothing to preserve.
-/
import proofs.«113778_j36386962932383_1_alg».proof.Defs
import proofs.«113778_j36386962932383_1_alg».proof.Proof.Gen.Kernel
import proofs.«113778_j36386962932383_1_alg».proof.Proof.Gen.Kernel.Skeleton
import proofs.«113778_j36386962932383_1_alg».proof.Proof.Gen.Kernel.Launch
import proofs.«113778_j36386962932383_1_alg».proof.Proof.Gen.Kernel.Points
import proofs.«113778_j36386962932383_1_alg».proof.Proof.Gen.Kernel.Frame
import proofs.«113778_j36386962932383_1_alg».proof.Proof.Gen.KernelIdeal
import proofs.«113778_j36386962932383_1_alg».proof.Proof.Gen.KernelIdeal.Skeleton
import proofs.«113778_j36386962932383_1_alg».proof.Proof.Gen.KernelIdeal.Launch
import proofs.«113778_j36386962932383_1_alg».proof.Proof.Gen.KernelIdeal.Points
import proofs.«113778_j36386962932383_1_alg».proof.Proof.Gen.KernelIdeal.Frame
import proofs.«113778_j36386962932383_1_alg».proof.Proof.Gen.ReferenceIdeal
import proofs.«113778_j36386962932383_1_alg».proof.Proof.Gen.Pre_finite_inputs
import proofs.«113778_j36386962932383_1_alg».proof.Proof.Spec
import proofs.«113778_j36386962932383_1_alg».proof.Proof.KernelRun
import proofs.«113778_j36386962932383_1_alg».proof.Proof.KernelChain
import proofs.«113778_j36386962932383_1_alg».proof.Proof.RefRun
import proofs.«113778_j36386962932383_1_alg».proof.Proof.RefRead
import proofs.«113778_j36386962932383_1_alg».proof.Proof.RefValue
import proofs.«113778_j36386962932383_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with `Spec.logits` of the arguments: the kernel's by following its result array back
    through its four regions, the reference's by reading its stages. -/
theorem algebraic : Cert.algebraic_KernelIdeal_ReferenceIdeal := by
  intro m ρ m' ρ' _ hagree
  refine ⟨fun c => Spec.logits (B := 128) (L := 256) (E := 512) (A := 256) (K := 1024) (FF := 2048) (FF2 := 4096) (N1 := 2048) (N2 := 2048) (N3 := 3)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelChain.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9⟩ := hagree c
    rw [Cert.RefValue.result_after, Cert.RefResult.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
